-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S500000x128 .f32) (main_arg1 : IVec S500000 32) (main_arg2 : FVec F S128x256 .f32) (main_arg3 : FVec F S256 .f32) (main_arg4 : FVec F S256x128 .f32) (main_arg5 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S500000x128 : Shape := ⟨2, ![500000, 128]⟩
abbrev S500000 : Shape := ⟨1, ![500000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S501760x128 : Shape := ⟨2, ![501760, 128]⟩
abbrev S501760 : Shape := ⟨1, ![501760]⟩
abbrev S2x1024x128 : Shape := ⟨3, ![2, 1024, 128]⟩
abbrev S1024x128 : Shape := ⟨2, ![1024, 128]⟩
abbrev S1024 : Shape := ⟨1, ![1024]⟩
abbrev S1x1024x128 : Shape := ⟨3, ![1, 1024, 128]⟩
abbrev S1024x1 : Shape := ⟨2, ![1024, 1]⟩
abbrev S1024x1024 : Shape := ⟨2, ![1024, 1024]⟩
abbrev S1024x256 : Shape := ⟨2, ![1024, 256]⟩
abbrev S1x256 : Shape := ⟨2, ![1, 256]⟩
abbrev S1x128 : Shape := ⟨2, ![1, 128]⟩

abbrev nBuf : Space → Nat
  | .hbm => 16
  | .vmem => 13
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S501760x128, .f32⟩
  | .hbm, ⟨9, _⟩ => ⟨S_, .i32⟩
  | .hbm, ⟨10, _⟩ => ⟨S_, .i32⟩
  | .hbm, ⟨11, _⟩ => ⟨S501760, .i32⟩
  | .hbm, ⟨12, _⟩ => ⟨S2x1024x128, .f32⟩
  | .hbm, ⟨13, _⟩ => ⟨S_, .f32⟩
  | .hbm, ⟨14, _⟩ => ⟨S1024x128, .f32⟩
  | .hbm, ⟨15, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024, .i32⟩
  | .local _ .vmem, ⟨3, _⟩ => ⟨S1024, .i32⟩
  | .local _ .vmem, ⟨4, _⟩ => ⟨S1x1024x128, .f32⟩
  | .local _ .vmem, ⟨5, _⟩ => ⟨S1x1024x128, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S256, .f32⟩
  | .local _ .vmem, ⟨10, _⟩ => ⟨S256x128, .f32⟩
  | .local _ .vmem, ⟨11, _⟩ => ⟨S128, .f32⟩
  | .local _ .vmem, ⟨12, _⟩ => ⟨S1024x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨2, ![2, 245], ![false, false]⟩

def k0_cond2 (i : grid0.Coords) : BitVec 1 :=
  let arg1 : BitVec 32 := BitVec.ofNat 32 (i 1).val
  let c244_i32 : BitVec 32 := 244#32
  let v21 : BitVec 1 := Scalar.cmpi .eq arg1 c244_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  pads_S500000x128_S501760x128_017600_000 : S500000x128.Pads (![0, 0] : Fin 2 → Nat) ![1760, 0] ![0, 0] S501760x128
  h_S_ : 0 < S_.numel
  pads_S500000_S501760_017600 : S500000.Pads (![0] : Fin 1 → Nat) ![1760] ![0] S501760
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  iota_S1024x1024_d1_w32 : S1024x1024.Iotas .tc 32 [1]
  broadcasts_S1024x1_S1024x1024 : S1024x1.Broadcasts S1024x1024
  natLt_1_32 : 1 < 32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  reducesTo_S2x1024x128_S1024x128_d0 : S2x1024x128.ReducesTo [0] S1024x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  dot_S1024x1024_S1024x128_S1024x128_0_0_1_1_n_n_wf : DotDims.WF S1024x1024 S1024x128 S1024x128 [0] [0] [1] [1] [] []
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S501760x128.size a
  hwx0_0 : ∀ i : grid0.Coords, EltTy.bits .f32 = 32 ∨ (Rect.block (s := S501760x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S501760.size a
  hwx0_1 : ∀ i : grid0.Coords, EltTy.bits .i32 = 32 ∨ (Rect.block (s := S501760) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x1024x128.size a
  hwx0_2 : ∀ i : grid0.Coords, EltTy.bits .f32 = 32 ∨ (Rect.block (s := S2x1024x128) S1x1024x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .f32 = 32 ∨ (Rect.block (s := S1024x128) S1024x128.size (cc1_transform_5 i) (hinb1_5 i)).WholeWords (EltTy.packing .f32)

variable [Facts₀]

def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000 : Shape := ⟨1, ![500000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S1024x128 : Shape := ⟨2, ![1024, 128]⟩
abbrev S500000x1 : Shape := ⟨2, ![500000, 1]⟩
abbrev S1024x256 : Shape := ⟨2, ![1024, 256]⟩
abbrev S1x256 : Shape := ⟨2, ![1, 256]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S_, .f32⟩
  | .hbm, ⟨7, _⟩ => ⟨S1024x128, .f32⟩
  | .hbm, ⟨8, _⟩ => ⟨S500000x1, .i32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x128, .f32⟩
  | .hbm, ⟨21, _⟩ => ⟨S1x128, .f32⟩
  | .hbm, ⟨22, _⟩ => ⟨S1024x128, .f32⟩
  | .hbm, ⟨23, _⟩ => ⟨S1024x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S500000_S500000x1_0 : S500000.BroadcastsInDim S500000x1 (![0] : Fin 1 → Fin S500000x1.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1024x128_S500000x1_S500000x128_1_0_0_1_wf : ScatterDims.WF S1024x128 S500000x1 S500000x128 [1] [0] [0] 1
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []

variable [Facts₀]

def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.KSegVals.lean ====
/-
  The two launches' data, at any float instance and over the buffer contents `V` a launch is entered from.

  First launch (grid 2 x 245; the flat point t is half t / 245, tile t % 245): tile t holds 1024 rows of the
  padded feature array and their 1024 district ids. After tile t the scratch holds the running per-district sums
  of the tiles of its half so far: at the first tile of a half it restarts from the zero array, at every other
  tile it adds the tile's one-hot product to what the tile before left. The result block of a half is written
  only at the half's last tile, from the running sums there; at every other tile the block is left idle.

  Second launch (one point): the two-layer perceptron of its five whole-array operands.
-/
import proofs.«431016_j89206470738329_1_alg».proof.Proof.Gen.Kernel.Launch
import proofs.«431016_j89206470738329_1_alg».proof.Proof.Gen.Kernel.Skeleton
import proofs.«431016_j89206470738329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## First launch: the tiles -/

/-- Window `w`'s block at point `t`, read off its array as the launch finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 1024 feature rows of tile `t`. -/
abbrev rowsAt (c : Dev nD) (t : Fin cfg0.N) : Vec F S1024x128 .f32 := tile0 V c 0 t
/-- The 1024 district ids of tile `t`. -/
abbrev idsAt (c : Dev nD) (t : Fin cfg0.N) : Vec F S1024 .i32 := tile0 V c 1 t

/-- The running per-district sums after tile `n`: restarted from the zero array at the first tile of each half
    (n divisible by 245), otherwise the sums after the tile before plus tile `n`'s one-hot product. -/
def sums (c : Dev nD) : (n : ℕ) → n < cfg0.N → Vec F S1024x128 .f32
  | 0, hn => k0_pay2 (rowsAt V c ⟨0, hn⟩) (idsAt V c ⟨0, hn⟩) (k0_pay1 (F := F))
  | n + 1, hn =>
    if (n + 1) % 245 = 0 then k0_pay2 (rowsAt V c ⟨n + 1, hn⟩) (idsAt V c ⟨n + 1, hn⟩) (k0_pay1 (F := F))
    else k0_pay2 (rowsAt V c ⟨n + 1, hn⟩) (idsAt V c ⟨n + 1, hn⟩) (sums c n (Nat.lt_of_succ_lt hn))

/-- At the first tile of a half the sums restart from zero. -/
theorem sums_first (c : Dev nD) (t : Fin cfg0.N) (h : t.val % 245 = 0) :
    sums V c t.val t.isLt = k0_pay2 (rowsAt V c t) (idsAt V c t) (k0_pay1 (F := F)) := by
  obtain ⟨n, hn⟩ := t
  cases n with
  | zero => rfl
  | succ n => exact if_pos h

/-- At any other tile they extend what the tile before left. -/
theorem sums_next (c : Dev nD) (t : Fin cfg0.N) (h : ¬t.val % 245 = 0) :
    sums V c t.val t.isLt = k0_pay2 (rowsAt V c t) (idsAt V c t) (sums V c (t.val - 1) (Nat.lt_of_le_of_lt (Nat.sub_le _ _) t.isLt)) := by
  obtain ⟨n, hn⟩ := t
  cases n with
  | zero => exact absurd (Nat.zero_mod _) h
  | succ n => exact if_neg h

/-! ## First launch: the body's two conditions over the grid -/

/-- "This is the first tile of its half". -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 245 = 0 :=
  (by decide +kernel : ∀ t : Fin grid0.N, isFirst (grid0.coords t) ↔ t.val % 245 = 0)

/-- "This is the last tile of its half". -/
abbrev isLast (i : grid0.Coords) : Prop := k0_cond2 i = 1#1
theorem isLast_iff : ∀ t : Fin cfg0.N, isLast (grid0.coords t) ↔ t.val % 245 = 244 :=
  (by decide +kernel : ∀ t : Fin grid0.N, isLast (grid0.coords t) ↔ t.val % 245 = 244)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The result window is idle, and not written back, away from the last tile of a half; live at it. -/
theorem idle0_2 : ∀ t : Fin cfg0.N, ¬isLast (grid0.coords t) → cfg0.idle 2 (grid0.coords t) = true := by decide +kernel
theorem noFlush0_2 : ∀ t : Fin cfg0.N, ¬isLast (grid0.coords t) → (cfg0.win 2).flush t = false := by decide +kernel
theorem live0_2 : ∀ t : Fin cfg0.N, isLast (grid0.coords t) → cfg0.idle 2 (grid0.coords t) = false := by decide +kernel

/-! ## First launch: the scratch and the invariant -/

/-- The scratch array, whole. -/
abbrev scr0 : Memref sig .tc .vmem S1024x128 .f32 := Memref.whole cc0_scratch0

/-- The core's scoped buffers the first launch neither stages nor uses as scratch (the second launch's staging
    buffers), each at some contents. -/
def idle0Bufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The launch's scoped rest with the scratch described by `S`, and the generator register at some state. -/
def restWith (c : Dev nD) (S : sProp 𝕄) : sProp 𝕄 :=
  iprop((S ∗ idle0Bufs (F := F) c) ∗ ∃ r, prngReg c r)

/-- The class invariant (every scoped buffer that is no staging buffer at some contents) is `restWith` of the
    scratch at some contents. -/
theorem PhiA0_eq (c : Dev nD) :
    (Pipeline.ΦA spec0 c : sProp 𝕄) = restWith c iprop(∃ d, owns (c : Thread nD τ) scr0 fullShare d) := by
  unfold Pipeline.ΦA restWith idle0Bufs; rw [scopedRest0_eq]; simp only [scr0, owns_whole]; try rfl

/-- The invariant before tile `n`: before the first, the class's; afterwards the scratch at the running sums
    after the tile before. -/
def PhiS (c : Dev nD) : (n : ℕ) → n ≤ cfg0.N → sProp 𝕄
  | 0, _ => Pipeline.ΦA spec0 c
  | n + 1, hn => restWith c (owns (c : Thread nD τ) scr0 fullShare (sums V c n hn))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = restWith c (owns (c : Thread nD τ) scr0 fullShare (sums V c n hn)) := rfl
theorem PhiS_pos (c : Dev nD) (n : ℕ) (h : n ≤ cfg0.N) (hz : n ≠ 0) :
    PhiS V c n h = restWith c (owns (c : Thread nD τ) scr0 fullShare (sums V c (n - 1) (by omega))) := by
  cases n with
  | zero => exact absurd rfl hz
  | succ n => rfl

/-! ## First launch: the proof data -/

/-- After tile `t`: the input windows' buffers still hold their tiles; the result window's holds the running
    sums re-laid as a 1 x 1024 x 128 block (consulted only at the last tile of a half). -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => k0_pay3 (sums V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = k0_pay3 (sums V c t.val t.isLt) := by dsimp only [dat0]
theorem Phi0_castSucc (c : Dev nD) (t : Fin cfg0.N) :
    (dat0 V c).Φ t.castSucc = PhiS V c t.val (Nat.le_of_lt t.isLt) := by
  dsimp only [dat0]; simp only [Fin.coe_castSucc]

/-- Each input window's current buffer holds its tile at every point (both are fetched at every point). -/
theorem before0_0 (c : Dev nD) (t : Fin cfg0.N) (d) : (dat0 V c).before 0 t d = tile0 V c 0 t :=
  ((dat0 V c).before_in_eq_fetched 0 rfl (fun _ => rfl) (fun _ _ _ => rfl) (fun t => by rw [after0_0]; unfold Dat.blockOf tile0; rw [A_eq0]; try rfl) t d).trans
    (by unfold Dat.fetched Dat.blockOf tile0; rw [A_eq0]; try rfl)
theorem before0_1 (c : Dev nD) (t : Fin cfg0.N) (d) : (dat0 V c).before 1 t d = tile0 V c 1 t :=
  ((dat0 V c).before_in_eq_fetched 1 rfl (fun _ => rfl) (fun _ _ _ => rfl) (fun t => by rw [after0_1]; unfold Dat.blockOf tile0; rw [A_eq0]; try rfl) t d).trans
    (by unfold Dat.fetched Dat.blockOf tile0; rw [A_eq0]; try rfl)

/-! ## Second launch -/

/-- Window `w`'s block at the one point: its whole array. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the point: the five operands' buffers as fetched; the result's at the perceptron of them. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => tile1 V c 4 t
    | ⟨5, _⟩ => k1_pay1 (tile1 V c 0 t) (tile1 V c 1 t) (tile1 V c 2 t) (tile1 V c 3 t) (tile1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = tile1 V c 3 t := by dsimp only [dat1]
theorem after1_4 (c : Dev nD) (t : Fin cfg1.N) : (dat1 V c).after 4 t = tile1 V c 4 t := by dsimp only [dat1]
theorem after1_5 (c : Dev nD) (t : Fin cfg1.N) :
    (dat1 V c).after 5 t = k1_pay1 (tile1 V c 0 t) (tile1 V c 1 t) (tile1 V c 2 t) (tile1 V c 3 t) (tile1 V c 4 t) := by dsimp only [dat1]

theorem before1_0 (c : Dev nD) (t : Fin cfg1.N) (d) : (dat1 V c).before 0 t d = tile1 V c 0 t :=
  ((dat1 V c).before_in_eq_fetched 0 rfl (fun _ => rfl) (fun _ _ _ => rfl) (fun t => by rw [after1_0]; unfold Dat.blockOf tile1; rw [A_eq1]; try rfl) t d).trans
    (by unfold Dat.fetched Dat.blockOf tile1; rw [A_eq1]; try rfl)
theorem before1_1 (c : Dev nD) (t : Fin cfg1.N) (d) : (dat1 V c).before 1 t d = tile1 V c 1 t :=
  ((dat1 V c).before_in_eq_fetched 1 rfl (fun _ => rfl) (fun _ _ _ => rfl) (fun t => by rw [after1_1]; unfold Dat.blockOf tile1; rw [A_eq1]; try rfl) t d).trans
    (by unfold Dat.fetched Dat.blockOf tile1; rw [A_eq1]; try rfl)
theorem before1_2 (c : Dev nD) (t : Fin cfg1.N) (d) : (dat1 V c).before 2 t d = tile1 V c 2 t :=
  ((dat1 V c).before_in_eq_fetched 2 rfl (fun _ => rfl) (fun _ _ _ => rfl) (fun t => by rw [after1_2]; unfold Dat.blockOf tile1; rw [A_eq1]; try rfl) t d).trans
    (by unfold Dat.fetched Dat.blockOf tile1; rw [A_eq1]; try rfl)
theorem before1_3 (c : Dev nD) (t : Fin cfg1.N) (d) : (dat1 V c).before 3 t d = tile1 V c 3 t :=
  ((dat1 V c).before_in_eq_fetched 3 rfl (fun _ => rfl) (fun _ _ _ => rfl) (fun t => by rw [after1_3]; unfold Dat.blockOf tile1; rw [A_eq1]; try rfl) t d).trans
    (by unfold Dat.fetched Dat.blockOf tile1; rw [A_eq1]; try rfl)
theorem before1_4 (c : Dev nD) (t : Fin cfg1.N) (d) : (dat1 V c).before 4 t d = tile1 V c 4 t :=
  ((dat1 V c).before_in_eq_fetched 4 rfl (fun _ => rfl) (fun _ _ _ => rfl) (fun t => by rw [after1_4]; unfold Dat.blockOf tile1; rw [A_eq1]; try rfl) t d).trans
    (by unfold Dat.fetched Dat.blockOf tile1; rw [A_eq1]; try rfl)

end Cert.Kernel.Seg

end
-- ==== Proof.KSegBody0.lean ====
/-
  The first launch's body at one grid point, by control case, and the body obligation.

  The body has two conditionals on the tile's position in its half: at the FIRST tile it stores the zero array
  into the scratch before anything else; at the LAST it copies the scratch into the result block after everything
  else. In between it always loads the tile's rows and ids and the scratch, and stores the scratch plus the tile's
  one-hot product back. So on whole buffers holding rows x, ids z, a result block o and a scratch s it leaves
    first, not last : o untouched, scratch = step x z 0
    neither         : o untouched, scratch = step x z s
    last, not first : o = the scratch re-laid, scratch = step x z s
  where step is the skeleton's payload. A half has 245 tiles, so no tile is both first and last.
-/
import proofs.«431016_j89206470738329_1_alg».proof.Proof.KSegVals
import Idealize.ShloMosaic.Lib.Pipeline.Value

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros1 : (![0] : Fin 1 → Nat) = fun _ => 0 := funext fun a => by fin_cases a <;> rfl
theorem zeros3 : (![0, 0, 0] : Fin 3 → Nat) = fun _ => 0 := funext fun a => by fin_cases a <;> rfl

/-! ## The three cases -/

set_option maxHeartbeats 2000000 in
/-- Neither first nor last: the scratch gains the tile's product. -/
theorem run_mid (c : Dev nD) (i : grid0.Coords) (arg2 : Memref sig .tc .vmem S1024x128 .f32) (harg2 : arg2.IsWhole) (arg3 : Memref sig .tc .vmem S1024 .i32) (harg3 : arg3.IsWhole) (arg4 : Memref sig .tc .vmem S1x1024x128 .f32) (harg4 : arg4.IsWhole) (arg5 : Memref sig .tc .vmem S1024x128 .f32) (harg5 : arg5.IsWhole)
    (hf : ¬isFirst i) (hl : ¬isLast i)
    (x0 : Vec F S1024x128 .f32) (z0 : Vec F S1024 .i32) (o0 : Vec F S1x1024x128 .f32) (s0 : Vec F S1024x128 .f32) (E : Set ℕ) (K : PUnit → sProp 𝕄) :
    iprop(owns (c : Thread nD τ) arg2 fullShare x0 ∗ owns (c : Thread nD τ) arg3 fullShare z0 ∗ owns (c : Thread nD τ) arg4 fullShare o0 ∗ owns (c : Thread nD τ) arg5 fullShare s0
        ∗ (iprop(owns (c : Thread nD τ) arg2 fullShare x0 ∗ owns (c : Thread nD τ) arg3 fullShare z0 ∗ owns (c : Thread nD τ) arg4 fullShare o0 ∗ owns (c : Thread nD τ) arg5 fullShare (k0_pay2 x0 z0 s0)) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_singleton_self _, View.mem_set_unit_zero zeros2 Facts₀.inb_S1024x128_S1024x128_0_0 y⟩),
    View.canon_unit_zero zeros2]
  simp only [View.readAt_eq_ld, harg2.read_unread, harg3.read_unread, harg5.read_unread,
    View.ld_unit_zero (S := S1024x128) zeros2, View.ld_unit_zero (S := S1024) zeros1]

set_option maxHeartbeats 2000000 in
/-- First tile of a half: the scratch restarts from the zero array, whatever it held. -/
theorem run_first (c : Dev nD) (i : grid0.Coords) (arg2 : Memref sig .tc .vmem S1024x128 .f32) (harg2 : arg2.IsWhole) (arg3 : Memref sig .tc .vmem S1024 .i32) (harg3 : arg3.IsWhole) (arg4 : Memref sig .tc .vmem S1x1024x128 .f32) (harg4 : arg4.IsWhole) (arg5 : Memref sig .tc .vmem S1024x128 .f32) (harg5 : arg5.IsWhole)
    (hf : isFirst i) (hl : ¬isLast i)
    (x0 : Vec F S1024x128 .f32) (z0 : Vec F S1024 .i32) (o0 : Vec F S1x1024x128 .f32) (s0 : Vec F S1024x128 .f32) (E : Set ℕ) (K : PUnit → sProp 𝕄) :
    iprop(owns (c : Thread nD τ) arg2 fullShare x0 ∗ owns (c : Thread nD τ) arg3 fullShare z0 ∗ owns (c : Thread nD τ) arg4 fullShare o0 ∗ owns (c : Thread nD τ) arg5 fullShare s0
        ∗ (iprop(owns (c : Thread nD τ) arg2 fullShare x0 ∗ owns (c : Thread nD τ) arg3 fullShare z0 ∗ owns (c : Thread nD τ) arg4 fullShare o0 ∗ owns (c : Thread nD τ) arg5 fullShare (k0_pay2 x0 z0 (k0_pay1 (F := F)))) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_run_names
  rw [View.read_writes_eq_canon _ _ _ (fun y => ⟨_, List.mem_cons_self, View.mem_set_unit_zero zeros2 Facts₀.inb_S1024x128_S1024x128_0_0 y⟩),
    View.canon_cons_unit_zero zeros2, View.readCov_unit_zero (S := S1024x128) _ zeros2]
  simp only [View.readAt_eq_ld, harg2.read_unread, harg3.read_unread,
    View.ld_unit_zero (S := S1024x128) zeros2, View.ld_unit_zero (S := S1024) zeros1]

set_option maxHeartbeats 2000000 in
/-- Last tile of a half: the scratch gains the tile's product, and the result block takes the scratch re-laid. -/
theorem run_last (c : Dev nD) (i : grid0.Coords) (arg2 : Memref sig .tc .vmem S1024x128 .f32) (harg2 : arg2.IsWhole) (arg3 : Memref sig .tc .vmem S1024 .i32) (harg3 : arg3.IsWhole) (arg4 : Memref sig .tc .vmem S1x1024x128 .f32) (harg4 : arg4.IsWhole) (arg5 : Memref sig .tc .vmem S1024x128 .f32) (harg5 : arg5.IsWhole)
    (hf : ¬isFirst i) (hl : isLast i)
    (x0 : Vec F S1024x128 .f32) (z0 : Vec F S1024 .i32) (o0 : Vec F S1x1024x128 .f32) (s0 : Vec F S1024x128 .f32) (E : Set ℕ) (K : PUnit → sProp 𝕄) :
    iprop(owns (c : Thread nD τ) arg2 fullShare x0 ∗ owns (c : Thread nD τ) arg3 fullShare z0 ∗ owns (c : Thread nD τ) arg4 fullShare o0 ∗ owns (c : Thread nD τ) arg5 fullShare s0
        ∗ (iprop(owns (c : Thread nD τ) arg2 fullShare x0 ∗ owns (c : Thread nD τ) arg3 fullShare z0 ∗ owns (c : Thread nD τ) arg4 fullShare (k0_pay3 (k0_pay2 x0 z0 s0)) ∗ owns (c : Thread nD τ) arg5 fullShare (k0_pay2 x0 z0 s0)) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_singleton_self _, View.mem_set_unit_zero zeros3 Facts₀.inb_S1x1024x128_S1x1024x128_0_0_0 y⟩),
      View.canon_unit_zero zeros3, View.readCov_unit_zero (S := S1024x128) _ zeros2]
    simp only [View.readAt_eq_ld, harg2.read_unread, harg3.read_unread, harg5.read_unread,
      View.ld_unit_zero (S := S1024x128) zeros2, View.ld_unit_zero (S := S1024) zeros1]
  iexists _; isplitr
  swap; · iexact H3
  ipureintro
  sl_unfold_run_names
  rw [View.read_writes_eq_canon _ _ _ (fun y => ⟨_, List.mem_singleton_self _, View.mem_set_unit_zero zeros2 Facts₀.inb_S1024x128_S1024x128_0_0 y⟩),
    View.canon_unit_zero zeros2]
  simp only [View.readAt_eq_ld, harg2.read_unread, harg3.read_unread, harg5.read_unread,
    View.ld_unit_zero (S := S1024x128) zeros2, View.ld_unit_zero (S := S1024) zeros1]

/-! ## The body obligation at a generic point -/

variable (V : (c : Dev nD) → (b : Ref sig .tc) → Buf (Elt F) ((c : Thread nD τ).loc b))

/-- Each window's current staging memref at point `t`, spelt as the pipeline passes it. -/
abbrev ms0_0 (t : Fin cfg0.N) : Memref sig .tc .vmem S1024x128 .f32 := win0_0.stage (cfg0.slots t 0)
abbrev ms0_1 (t : Fin cfg0.N) : Memref sig .tc .vmem S1024 .i32 := win0_1.stage (cfg0.slots t 1)
abbrev ms0_2 (t : Fin cfg0.N) : Memref sig .tc .vmem S1x1024x128 .f32 := win0_2.stage (cfg0.slots t 2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem leaves0_0 (c : Dev nD) (t : Fin cfg0.N) :
    (dat0 V c).leavesExact 0 t = owns (c : Thread nD τ) (ms0_0 t) fullShare (tile0 V c 0 t) := by
  unfold Dat.leavesExact; rw [live0_0 t, after0_0]
theorem leaves0_1 (c : Dev nD) (t : Fin cfg0.N) :
    (dat0 V c).leavesExact 1 t = owns (c : Thread nD τ) (ms0_1 t) fullShare (tile0 V c 1 t) := by
  unfold Dat.leavesExact; rw [live0_1 t, after0_1]
theorem leaves0_2_last (c : Dev nD) (t : Fin cfg0.N) (h : isLast (grid0.coords t)) :
    (dat0 V c).leavesExact 2 t = owns (c : Thread nD τ) (ms0_2 t) fullShare (k0_pay3 (sums V c t.val t.isLt)) := by
  unfold Dat.leavesExact; rw [live0_2 t h, after0_2]

set_option maxHeartbeats 4000000 in
/-- The body at any point: the closed forms say which case the point is in; the invariant hands the body the scratch
    at what the tile before left (at anything before the very first tile) and takes it back at this tile's running
    sums; the result window is handed back untouched away from a half's last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1]
  have hN : t.val < 490 := lt_of_lt_of_eq t.isLt (show cfg0.N = 490 from N_0)
  by_cases h0 : t.val % 245 = 0
  · have h1 : ¬t.val % 245 = 244 := by omega
    have hF : isFirst (grid0.coords t) := (isFirst_iff t).mpr h0
    have hL : ¬isLast (grid0.coords t) := fun h => h1 ((isLast_iff t).mp h)
    rw [Dat.leavesExact_idle (dat0 V c) 2 t (idle0_2 t hL) (noFlush0_2 t hL), sums_first V c t h0]
    by_cases hz : t.val = 0
    · rw [Phi0_castSucc V c t, PhiS_zero V c _ _ hz, PhiA0_eq]; unfold restWith
      iintro ⟨⟨⟨⟨%s, HS⟩, Hid⟩, Hg⟩, Ho, ⟨%d0, H0⟩, ⟨%d1, H1⟩, ⟨%d2, H2⟩⟩
      iapply (run_first c (grid0.coords t) _ _ _ _ _ _ _ _ hF hL (tile0 V c 0 t) (tile0 V c 1 t) _ s Set.univ _)
      isplitl [H0]; · iexact H0
      isplitl [H1]; · iexact H1
      isplitl [H2]; · iexact H2
      isplitl [HS]; · iexact HS
      iintro ⟨H0, H1, H2, HS⟩
      isplitl [HS Hid Hg]
      · isplitl [HS Hid]
        · isplitl [HS]; · iexact HS
          iexact Hid
        iexact Hg
      isplitl [Ho]; · iexact Ho
      isplitl [H0]; · iexact H0
      isplitl [H1]; · iexact H1
      iexists _; iexact H2
    · rw [Phi0_castSucc V c t, PhiS_pos V c _ _ hz]; unfold restWith
      iintro ⟨⟨⟨HS, Hid⟩, Hg⟩, Ho, ⟨%d0, H0⟩, ⟨%d1, H1⟩, ⟨%d2, H2⟩⟩
      iapply (run_first c (grid0.coords t) _ _ _ _ _ _ _ _ hF hL (tile0 V c 0 t) (tile0 V c 1 t) _ _ Set.univ _)
      isplitl [H0]; · iexact H0
      isplitl [H1]; · iexact H1
      isplitl [H2]; · iexact H2
      isplitl [HS]; · iexact HS
      iintro ⟨H0, H1, H2, HS⟩
      isplitl [HS Hid Hg]
      · isplitl [HS Hid]
        · isplitl [HS]; · iexact HS
          iexact Hid
        iexact Hg
      isplitl [Ho]; · iexact Ho
      isplitl [H0]; · iexact H0
      isplitl [H1]; · iexact H1
      iexists _; iexact H2
  · have hz : t.val ≠ 0 := fun e => h0 (by rw [e])
    have hF : ¬isFirst (grid0.coords t) := fun h => h0 ((isFirst_iff t).mp h)
    rw [Phi0_castSucc V c t, PhiS_pos V c _ _ hz, sums_next V c t h0]; unfold restWith
    by_cases h1 : t.val % 245 = 244
    · have hL : isLast (grid0.coords t) := (isLast_iff t).mpr h1
      rw [leaves0_2_last V c t hL, sums_next V c t h0]
      iintro ⟨⟨⟨HS, Hid⟩, Hg⟩, Ho, ⟨%d0, H0⟩, ⟨%d1, H1⟩, ⟨%d2, H2⟩⟩
      iapply (run_last c (grid0.coords t) _ _ _ _ _ _ _ _ hF hL (tile0 V c 0 t) (tile0 V c 1 t) _ _ Set.univ _)
      isplitl [H0]; · iexact H0
      isplitl [H1]; · iexact H1
      isplitl [H2]; · iexact H2
      isplitl [HS]; · iexact HS
      iintro ⟨H0, H1, H2, HS⟩
      isplitl [HS Hid Hg]
      · isplitl [HS Hid]
        · isplitl [HS]; · iexact HS
          iexact Hid
        iexact Hg
      isplitl [Ho]; · iexact Ho
      isplitl [H0]; · iexact H0
      isplitl [H1]; · iexact H1
      iexact H2
    · have hL : ¬isLast (grid0.coords t) := fun h => h1 ((isLast_iff t).mp h)
      rw [Dat.leavesExact_idle (dat0 V c) 2 t (idle0_2 t hL) (noFlush0_2 t hL)]
      iintro ⟨⟨⟨HS, Hid⟩, Hg⟩, Ho, ⟨%d0, H0⟩, ⟨%d1, H1⟩, ⟨%d2, H2⟩⟩
      iapply (run_mid c (grid0.coords t) _ _ _ _ _ _ _ _ hF hL (tile0 V c 0 t) (tile0 V c 1 t) _ _ Set.univ _)
      isplitl [H0]; · iexact H0
      isplitl [H1]; · iexact H1
      isplitl [H2]; · iexact H2
      isplitl [HS]; · iexact HS
      iintro ⟨H0, H1, H2, HS⟩
      isplitl [HS Hid Hg]
      · isplitl [HS Hid]
        · isplitl [HS]; · iexact HS
          iexact Hid
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem Phi_in0 (c : Dev nD) : Pipeline.ΦA spec0 c ⊢ (dat0 V c).Φ 0 := by
  rw [show (dat0 V c).Φ 0 = PhiS V c 0 (Nat.zero_le _) from rfl, PhiS_zero V c 0 _ rfl]

/-- After the last tile the invariant gives the class's back: the scratch's contents are forgotten. -/
theorem Phi_out0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 490 := N_0; omega), PhiA0_eq]
  unfold restWith
  iintro ⟨⟨HS, Hid⟩, Hg⟩
  isplitl [HS Hid]
  · isplitl [HS]
    · iexists _; iexact HS
    iexact Hid
  iexact Hg

end Cert.Kernel.Seg

end
-- ==== Proof.KSegBody1.lean ====
/-
  The second launch's body at its one grid point, and the body obligation.

  On whole buffers holding the summed features h, the two weight matrices and the two bias vectors, the body loads
  all five (and the result buffer, which it does not use), and stores the two-layer perceptron of them into the
  result buffer: the skeleton's one payload. The operands' buffers are left as found.
-/
import proofs.«431016_j89206470738329_1_alg».proof.Proof.KSegVals
import Idealize.ShloMosaic.Lib.Pipeline.Value

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zz2 : (![0, 0] : Fin 2 → Nat) = fun _ => 0 := funext fun a => by fin_cases a <;> rfl
theorem zz1 : (![0] : Fin 1 → Nat) = fun _ => 0 := funext fun a => by fin_cases a <;> rfl

set_option maxHeartbeats 2000000 in
theorem run_mlp (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S1024x128 .f32) (harg6 : arg6.IsWhole)
    (x0 : Vec F S1024x128 .f32) (x1 : Vec F S128x256 .f32) (x2 : Vec F S256 .f32) (x3 : Vec F S256x128 .f32) (x4 : Vec F S128 .f32) (o0 : Vec F S1024x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare o0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [View.read_writes_eq_canon _ _ _ (fun y => ⟨_, List.mem_singleton_self _, View.mem_set_unit_zero zz2 Facts₀.inb_S1024x128_S1024x128_0_0 y⟩),
    View.canon_unit_zero zz2]
  simp only [View.readAt_eq_ld, harg1.read_unread, harg2.read_unread, harg3.read_unread, harg4.read_unread, harg5.read_unread,
    View.ld_unit_zero (S := S1024x128) zz2, View.ld_unit_zero (S := S128x256) zz2, View.ld_unit_zero (S := S256x128) zz2,
    View.ld_unit_zero (S := S256) zz1, View.ld_unit_zero (S := S128) zz1]

variable (V : (c : Dev nD) → (b : Ref sig .tc) → Buf (Elt F) ((c : Thread nD τ).loc b))

/-- Each window's current staging memref at point `t`, spelt as the pipeline passes it. -/
abbrev ms1_0 (t : Fin cfg1.N) : Memref sig .tc .vmem S1024x128 .f32 := win1_0.stage (cfg1.slots t 0)
abbrev ms1_1 (t : Fin cfg1.N) : Memref sig .tc .vmem S128x256 .f32 := win1_1.stage (cfg1.slots t 1)
abbrev ms1_2 (t : Fin cfg1.N) : Memref sig .tc .vmem S256 .f32 := win1_2.stage (cfg1.slots t 2)
abbrev ms1_3 (t : Fin cfg1.N) : Memref sig .tc .vmem S256x128 .f32 := win1_3.stage (cfg1.slots t 3)
abbrev ms1_4 (t : Fin cfg1.N) : Memref sig .tc .vmem S128 .f32 := win1_4.stage (cfg1.slots t 4)
abbrev ms1_5 (t : Fin cfg1.N) : Memref sig .tc .vmem S1024x128 .f32 := win1_5.stage (cfg1.slots t 5)

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (run_mlp c (grid1.coords t) _ _ _ _ _ _ _ _ _ _ _ _ (tile1 V c 0 t) (tile1 V c 1 t) (tile1 V c 2 t) (tile1 V c 3 t) (tile1 V c 4 t) _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at the point. -/
theorem body_obligation1 (c : Dev nD) : BodyObligation (dat1 (F := F) V c) (defs₀ (F := F)) Variants.none () Set.univ := fun t => by
  rw [bigSep_W1, bigSep_W1]
  exact sound_body1 V c t

end Cert.Kernel.Seg

end
-- ==== Proof.KSegRun.lean ====
/-
  The whole run. @main is: four short host stretches (two padding calls: the feature rows padded with zero
  rows and the district ids padded with the out-of-range id 1024, up to 490 tiles of 1024 rows), the first launch,
  one host stretch (the two halves' partial sums added), the second launch.

  Between two items every unscoped buffer is held at contents computed from the launch memory: a host stretch
  applies its operations; a launch changes only its result array, to what its write-backs leave (the proof data's
  array after the last point). Each launch is a segment record over those contents; the argument arrays are never
  written, and the program's result is what the second launch leaves in its result array.
-/
import proofs.«431016_j89206470738329_1_alg».proof.Proof.KSegBody0
import proofs.«431016_j89206470738329_1_alg».proof.Proof.KSegBody1
import proofs.«431016_j89206470738329_1_alg».proof.Proof.Gen.Kernel.Regions

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at the launches' ends -/

/-- The first launch's entry contents: the launch memory after the four host stretches before it. -/
abbrev Vin0 : (c : Dev nD) → (b : Ref sig .tc) → Buf (Elt F) ((c : Thread nD τ).loc b) := fun c b => Gen.V4 m c b

/-- What the first launch leaves, buffer by buffer: its result array at the write-backs' fold, the rest as entered. -/
def left0 (c : Dev nD) : Valuation τ sig (Elt F) :=
  Pipeline.withArrays spec0 c (Gen.V4 m c) fun w => (dat0 (Vin0 m) c).arrAt w cfg0.N

/-- The contents after the first launch and the host stretch behind it: the second launch's entry contents. -/
abbrev mid (c : Dev nD) : Valuation τ sig (Elt F) :=
  StableHlo.after hostOps1 (Function.update (Gen.V4 m c) main_v2 (left0 m c main_v2))
abbrev Vin1 : (c : Dev nD) → (b : Ref sig .tc) → Buf (Elt F) ((c : Thread nD τ).loc b) := fun c b => mid m c b

/-- What the second launch leaves. -/
def left1 (c : Dev nD) : Valuation τ sig (Elt F) :=
  Pipeline.withArrays spec1 c (mid m c) fun w => (dat1 (Vin1 m) c).arrAt w cfg1.N

/-- The launches' results, as the generated boundary contents read them (item 5 reads the first launch's result
    array, item 7 the second's). -/
def outs : Gen.Outs (F := F) := fun n r c => if n = 5 then left0 m c r else left1 m c r

theorem V6_eq (c : Dev nD) : Gen.V6 m (outs m) c = mid m c := rfl

abbrev Vout0 : (c : Dev nD) → (b : Ref sig .tc) → Buf (Elt F) ((c : Thread nD τ).loc b) := fun c b => Gen.V5 m (outs m) c b
abbrev Vout1 : (c : Dev nD) → (b : Ref sig .tc) → Buf (Elt F) ((c : Thread nD τ).loc b) := fun c b => Gen.V7 m (outs m) c b

/-- Every pipeline's proof data, each at its launch's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- The first launch's result array ends at the fold of its write-backs. -/
theorem out0_eq (c : Dev nD) : Gen.V5 m (outs m) c main_v2 = (dat0 (Vin0 m) c).arrAt 2 cfg0.N := by
  show Function.update (Gen.V4 m c) (Proc.devRef .tc main_v2) (left0 m c main_v2) (Proc.devRef .tc main_v2) = _
  rw [Function.update_self]
  exact Pipeline.withArrays_arr spec0 launch0.win.arr_inj c _ _ 2
/-- The second launch's result array ends at the fold of its write-backs. -/
theorem out1_eq (c : Dev nD) : Gen.V7 m (outs m) c main_v4 = (dat1 (Vin1 m) c).arrAt 5 cfg1.N := by
  show Function.update (Gen.V6 m (outs m) c) (Proc.devRef .tc main_v4) (left1 m c main_v4) (Proc.devRef .tc main_v4) = _
  rw [Function.update_self]
  exact Pipeline.withArrays_arr spec1 launch1.win.arr_inj c _ _ 5

/-- At a launch's exit each of its arrays holds what the pipeline leaves and every other buffer what it held at
    entry. -/
theorem hF0 (c : Dev nD) : ∀ w : Fin cfg0.W, (pdats m 0 c).arrAt w cfg0.N = Vout0 m c (Pipeline.arrRef spec0 w)
  | ⟨0, _⟩ => ((dat0 (Vin0 m) c).arrAt_in 0 rfl _).trans ((A_eq0 (Vin0 m) c 0).trans (Gen.V5_of m (outs m) c main_v0 (by decide)).symm)
  | ⟨1, _⟩ => ((dat0 (Vin0 m) c).arrAt_in 1 rfl _).trans ((A_eq0 (Vin0 m) c 1).trans (Gen.V5_of m (outs m) c main_v1 (by decide)).symm)
  | ⟨2, _⟩ => (out0_eq m c).symm
theorem hrest0 (c : Dev nD) : ∀ b, b ∉ Finset.univ.image (Pipeline.arrRef spec0) → Vout0 m c b = Vin0 m c b :=
  fun b hb => Gen.V5_of m (outs m) c b (by
    simp only [List.mem_singleton]
    exact fun e => hb (Finset.mem_image.mpr ⟨2, Finset.mem_univ _, e.symm⟩))
theorem hF1 (c : Dev nD) : ∀ w : Fin cfg1.W, (pdats m 1 c).arrAt w cfg1.N = Vout1 m c (Pipeline.arrRef spec1 w)
  | ⟨0, _⟩ => ((dat1 (Vin1 m) c).arrAt_in 0 rfl _).trans ((A_eq1 (Vin1 m) c 0).trans (Gen.V7_of m (outs m) c main_v3 (by decide)).symm)
  | ⟨1, _⟩ => ((dat1 (Vin1 m) c).arrAt_in 1 rfl _).trans ((A_eq1 (Vin1 m) c 1).trans (Gen.V7_of m (outs m) c main_arg2 (by decide)).symm)
  | ⟨2, _⟩ => ((dat1 (Vin1 m) c).arrAt_in 2 rfl _).trans ((A_eq1 (Vin1 m) c 2).trans (Gen.V7_of m (outs m) c main_arg3 (by decide)).symm)
  | ⟨3, _⟩ => ((dat1 (Vin1 m) c).arrAt_in 3 rfl _).trans ((A_eq1 (Vin1 m) c 3).trans (Gen.V7_of m (outs m) c main_arg4 (by decide)).symm)
  | ⟨4, _⟩ => ((dat1 (Vin1 m) c).arrAt_in 4 rfl _).trans ((A_eq1 (Vin1 m) c 4).trans (Gen.V7_of m (outs m) c main_arg5 (by decide)).symm)
  | ⟨5, _⟩ => (out1_eq m c).symm
theorem hrest1 (c : Dev nD) : ∀ b, b ∉ Finset.univ.image (Pipeline.arrRef spec1) → Vout1 m c b = Vin1 m c b :=
  fun b hb => Gen.V7_of m (outs m) c b (by
    simp only [List.mem_singleton]
    exact fun e => hb (Finset.mem_image.mpr ⟨5, Finset.mem_univ _, e.symm⟩))

/-! ## The launches as segments -/

/-- No core owes another anything: no level is assigned. -/
abbrev Lz : GSem nD τ sig → Finset Unit := fun _ => ∅
abbrev lvz : GSem nD τ sig → Unit → ℕ := fun _ _ => 0
/-- What rides beside the buffers through every item: the generator register at some state, nothing owed. -/
abbrev Rz (c : Dev nD) : sProp 𝕄 := iprop((∃ r, prngReg c r) ∗ ∃ W, owes (c : Thread nD τ) (0 : CellTallies nD τ sig Unit) W)

-- the library's array lemmas are stated over the pinned configuration: matching them takes unfolding plain definitions
-- in a metavariable's type
set_option backward.isDefEq.respectTransparency.types false in
/-- Launch 0 as a segment: its arrays split out of the unscoped buffers at entry and put back at the exit contents;
    the generator register into the invariant and out; nothing owed; no semaphore of the kernel's own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (Gen.V4 m c) ∗ Rz c)
  post c := iprop(StableHlo.held (c : Thread nD τ) (Pipeline.ucRefs τ sig) (Gen.V5 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi_in0 (Vin0 m) c)
    unfold Pipeline.ΦA
    iintro ⟨Hp, -, Hr⟩
    isplitl [Hr]; · iexact Hr
    iexact Hp
  hout c := by
    rw [Pipeline.ownSems0_none]
    refine (Phi_out0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's array lemmas are stated over the pinned configuration: matching them takes unfolding plain definitions
-- in a metavariable's type
set_option backward.isDefEq.respectTransparency.types false in
/-- Launch 1 as a segment: its arrays split out of the unscoped buffers at entry and put back at the exit contents;
    the generator register into the invariant and out; nothing owed; no semaphore of the kernel's own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (mid m c) ∗ Rz c)
  post c := iprop(StableHlo.held (c : Thread nD τ) (Pipeline.ucRefs τ sig) (Gen.V7 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

-- the conditional frame's implicit arguments are found by unifying its conclusion with this one
set_option backward.isDefEq.respectTransparency.types false in
/-- Every weakly fair execution of @main terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb (UR sig nD τ) 𝕄) () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rz c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by iintro ⟨-, H⟩; iexact H)
    (reg0 m) (fun c => .rfl) (fun c => .rfl) (reg1 m) (fun c => .rfl) (fun c => .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run with its result -/

-- the launch theorem's implicit arguments are found by unifying its conclusion with this one
set_option backward.isDefEq.respectTransparency.types false in
/-- Every weakly fair execution of @main terminates, nothing faulting, with the result array at what the second
    launch's write-back leaves and the argument arrays unchanged: the several-launch run over the two segment
    records, the last thread state read against the final memory. -/
theorem run_val : θ_run defs (onTc (τ := τ) (main (F := F))) ⟨m, fun _ => 0, ρ⟩ (fun r => ∀ c : Dev nD,
      r.2.mem ((c.tc : Thread nD τ).loc main_v4) = (dat1 (Vin1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj (emb₁ : Emb (UR sig nD τ) 𝕄) defs₀ Variants.none Lz lvz m ρ main
    (Gen.segs m (outs m) Variants.none Lz lvz (fun _ c => Rz c) () (pdats m) (reg0 m) (reg1 m))
    (fun c Q => by
      rewrite [main_chain c, Seg.run_eq_chain,
        show (Gen.segs m (outs m) Variants.none Lz lvz (fun _ c => Rz c) () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rz c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (by iintro ⟨-, H⟩; iexact H)⟩)
    (hinit := ?_) (QY := fun c s => ∀ b ∈ Pipeline.ucRefs τ sig, s.mem (((c : Thread nD τ)).1, b) = Gen.V7 m (outs m) c b)
    (hfin := fun c s' => by
      iintro ⟨Hh, HSI⟩
      unfold StableHlo.held
      imodintro
      iapply (pointsTo_read_all (Pipeline.ucRefs τ sig) (fun b => (((c : Thread nD τ)).1, b)) (Gen.V7 m (outs m) c) s')
      isplitl [Hh] <;> iassumption)
    (hQ := fun s h c =>
      ⟨(h c _ (mem_uc main_v4 (by decide))).trans (out1_eq m c),
        (h c _ (mem_uc main_arg0 (by decide))).trans (Gen.V7_main_arg0 m (outs m) c),
        (h c _ (mem_uc main_arg1 (by decide))).trans (Gen.V7_main_arg1 m (outs m) c),
        (h c _ (mem_uc main_arg2 (by decide))).trans (Gen.V7_main_arg2 m (outs m) c),
        (h c _ (mem_uc main_arg3 (by decide))).trans (Gen.V7_main_arg3 m (outs m) c),
        (h c _ (mem_uc main_arg4 (by decide))).trans (Gen.V7_main_arg4 m (outs m) c),
        (h c _ (mem_uc main_arg5 (by decide))).trans (Gen.V7_main_arg5 m (outs m) c)⟩)
  · -- the launch: the unscoped buffers are held at the launch contents; the generator register and the empty debt ride along
    have hride : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts Lz lvz)
        ⊢ (|={Set.univ}=> bigSep Finset.univ (fun c : Dev nD => Rz c) : sProp 𝕄) := by
      refine Pipeline.initEach Lz lvz fun c => ?_
      iintro ⟨⟨-, HO, -, Hp, -⟩, -⟩
      imodintro
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hride $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => Rz c)]
    isplitl [Hh]; · iexact Hh
    iexact HE

end Cert.Kernel.Seg

end
-- ==== Proof.SegVals.lean ====
/-
  The two launches' data, at any float instance and over the buffer contents `V` a launch is entered from.

  First launch (grid 2 x 245; the flat point t is half t / 245, tile t % 245): tile t holds 1024 rows of the
  padded feature array and their 1024 district ids. After tile t the scratch holds the running per-district sums
  of the tiles of its half so far: at the first tile of a half it restarts from the zero array, at every other
  tile it adds the tile's one-hot product to what the tile before left. The result block of a half is written
  only at the half's last tile, from the running sums there; at every other tile the block is left idle.

  Second launch (one point): the two-layer perceptron of its five whole-array operands.
-/
import proofs.«431016_j89206470738329_1_alg».proof.Proof.Gen.KernelIdeal.Launch
import proofs.«431016_j89206470738329_1_alg».proof.Proof.Gen.KernelIdeal.Skeleton
import proofs.«431016_j89206470738329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## First launch: the tiles -/

/-- Window `w`'s block at point `t`, read off its array as the launch finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 1024 feature rows of tile `t`. -/
abbrev rowsAt (c : Dev nD) (t : Fin cfg0.N) : Vec F S1024x128 .f32 := tile0 V c 0 t
/-- The 1024 district ids of tile `t`. -/
abbrev idsAt (c : Dev nD) (t : Fin cfg0.N) : Vec F S1024 .i32 := tile0 V c 1 t

/-- The running per-district sums after tile `n`: restarted from the zero array at the first tile of each half
    (n divisible by 245), otherwise the sums after the tile before plus tile `n`'s one-hot product. -/
def sums (c : Dev nD) : (n : ℕ) → n < cfg0.N → Vec F S1024x128 .f32
  | 0, hn => k0_pay2 (rowsAt V c ⟨0, hn⟩) (idsAt V c ⟨0, hn⟩) (k0_pay1 (F := F))
  | n + 1, hn =>
    if (n + 1) % 245 = 0 then k0_pay2 (rowsAt V c ⟨n + 1, hn⟩) (idsAt V c ⟨n + 1, hn⟩) (k0_pay1 (F := F))
    else k0_pay2 (rowsAt V c ⟨n + 1, hn⟩) (idsAt V c ⟨n + 1, hn⟩) (sums c n (Nat.lt_of_succ_lt hn))

/-- At the first tile of a half the sums restart from zero. -/
theorem sums_first (c : Dev nD) (t : Fin cfg0.N) (h : t.val % 245 = 0) :
    sums V c t.val t.isLt = k0_pay2 (rowsAt V c t) (idsAt V c t) (k0_pay1 (F := F)) := by
  obtain ⟨n, hn⟩ := t
  cases n with
  | zero => rfl
  | succ n => exact if_pos h

/-- At any other tile they extend what the tile before left. -/
theorem sums_next (c : Dev nD) (t : Fin cfg0.N) (h : ¬t.val % 245 = 0) :
    sums V c t.val t.isLt = k0_pay2 (rowsAt V c t) (idsAt V c t) (sums V c (t.val - 1) (Nat.lt_of_le_of_lt (Nat.sub_le _ _) t.isLt)) := by
  obtain ⟨n, hn⟩ := t
  cases n with
  | zero => exact absurd (Nat.zero_mod _) h
  | succ n => exact if_neg h

/-! ## First launch: the body's two conditions over the grid -/

/-- "This is the first tile of its half". -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 245 = 0 :=
  (by decide +kernel : ∀ t : Fin grid0.N, isFirst (grid0.coords t) ↔ t.val % 245 = 0)

/-- "This is the last tile of its half". -/
abbrev isLast (i : grid0.Coords) : Prop := k0_cond2 i = 1#1
theorem isLast_iff : ∀ t : Fin cfg0.N, isLast (grid0.coords t) ↔ t.val % 245 = 244 :=
  (by decide +kernel : ∀ t : Fin grid0.N, isLast (grid0.coords t) ↔ t.val % 245 = 244)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The result window is idle, and not written back, away from the last tile of a half; live at it. -/
theorem idle0_2 : ∀ t : Fin cfg0.N, ¬isLast (grid0.coords t) → cfg0.idle 2 (grid0.coords t) = true := by decide +kernel
theorem noFlush0_2 : ∀ t : Fin cfg0.N, ¬isLast (grid0.coords t) → (cfg0.win 2).flush t = false := by decide +kernel
theorem live0_2 : ∀ t : Fin cfg0.N, isLast (grid0.coords t) → cfg0.idle 2 (grid0.coords t) = false := by decide +kernel

/-! ## First launch: the scratch and the invariant -/

/-- The scratch array, whole. -/
abbrev scr0 : Memref sig .tc .vmem S1024x128 .f32 := Memref.whole cc0_scratch0

/-- The core's scoped buffers the first launch neither stages nor uses as scratch (the second launch's staging
    buffers), each at some contents. -/
def idle0Bufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The launch's scoped rest with the scratch described by `S`, and the generator register at some state. -/
def restWith (c : Dev nD) (S : sProp 𝕄) : sProp 𝕄 :=
  iprop((S ∗ idle0Bufs (F := F) c) ∗ ∃ r, prngReg c r)

/-- The class invariant (every scoped buffer that is no staging buffer at some contents) is `restWith` of the
    scratch at some contents. -/
theorem PhiA0_eq (c : Dev nD) :
    (Pipeline.ΦA spec0 c : sProp 𝕄) = restWith c iprop(∃ d, owns (c : Thread nD τ) scr0 fullShare d) := by
  unfold Pipeline.ΦA restWith idle0Bufs; rw [scopedRest0_eq]; simp only [scr0, owns_whole]; try rfl

/-- The invariant before tile `n`: before the first, the class's; afterwards the scratch at the running sums
    after the tile before. -/
def PhiS (c : Dev nD) : (n : ℕ) → n ≤ cfg0.N → sProp 𝕄
  | 0, _ => Pipeline.ΦA spec0 c
  | n + 1, hn => restWith c (owns (c : Thread nD τ) scr0 fullShare (sums V c n hn))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = restWith c (owns (c : Thread nD τ) scr0 fullShare (sums V c n hn)) := rfl
theorem PhiS_pos (c : Dev nD) (n : ℕ) (h : n ≤ cfg0.N) (hz : n ≠ 0) :
    PhiS V c n h = restWith c (owns (c : Thread nD τ) scr0 fullShare (sums V c (n - 1) (by omega))) := by
  cases n with
  | zero => exact absurd rfl hz
  | succ n => rfl

/-! ## First launch: the proof data -/

/-- After tile `t`: the input windows' buffers still hold their tiles; the result window's holds the running
    sums re-laid as a 1 x 1024 x 128 block (consulted only at the last tile of a half). -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => k0_pay3 (sums V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = k0_pay3 (sums V c t.val t.isLt) := by dsimp only [dat0]
theorem Phi0_castSucc (c : Dev nD) (t : Fin cfg0.N) :
    (dat0 V c).Φ t.castSucc = PhiS V c t.val (Nat.le_of_lt t.isLt) := by
  dsimp only [dat0]; simp only [Fin.coe_castSucc]

/-- Each input window's current buffer holds its tile at every point (both are fetched at every point). -/
theorem before0_0 (c : Dev nD) (t : Fin cfg0.N) (d) : (dat0 V c).before 0 t d = tile0 V c 0 t :=
  ((dat0 V c).before_in_eq_fetched 0 rfl (fun _ => rfl) (fun _ _ _ => rfl) (fun t => by rw [after0_0]; unfold Dat.blockOf tile0; rw [A_eq0]; try rfl) t d).trans
    (by unfold Dat.fetched Dat.blockOf tile0; rw [A_eq0]; try rfl)
theorem before0_1 (c : Dev nD) (t : Fin cfg0.N) (d) : (dat0 V c).before 1 t d = tile0 V c 1 t :=
  ((dat0 V c).before_in_eq_fetched 1 rfl (fun _ => rfl) (fun _ _ _ => rfl) (fun t => by rw [after0_1]; unfold Dat.blockOf tile0; rw [A_eq0]; try rfl) t d).trans
    (by unfold Dat.fetched Dat.blockOf tile0; rw [A_eq0]; try rfl)

/-! ## Second launch -/

/-- Window `w`'s block at the one point: its whole array. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the point: the five operands' buffers as fetched; the result's at the perceptron of them. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => tile1 V c 4 t
    | ⟨5, _⟩ => k1_pay1 (tile1 V c 0 t) (tile1 V c 1 t) (tile1 V c 2 t) (tile1 V c 3 t) (tile1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = tile1 V c 3 t := by dsimp only [dat1]
theorem after1_4 (c : Dev nD) (t : Fin cfg1.N) : (dat1 V c).after 4 t = tile1 V c 4 t := by dsimp only [dat1]
theorem after1_5 (c : Dev nD) (t : Fin cfg1.N) :
    (dat1 V c).after 5 t = k1_pay1 (tile1 V c 0 t) (tile1 V c 1 t) (tile1 V c 2 t) (tile1 V c 3 t) (tile1 V c 4 t) := by dsimp only [dat1]

theorem before1_0 (c : Dev nD) (t : Fin cfg1.N) (d) : (dat1 V c).before 0 t d = tile1 V c 0 t :=
  ((dat1 V c).before_in_eq_fetched 0 rfl (fun _ => rfl) (fun _ _ _ => rfl) (fun t => by rw [after1_0]; unfold Dat.blockOf tile1; rw [A_eq1]; try rfl) t d).trans
    (by unfold Dat.fetched Dat.blockOf tile1; rw [A_eq1]; try rfl)
theorem before1_1 (c : Dev nD) (t : Fin cfg1.N) (d) : (dat1 V c).before 1 t d = tile1 V c 1 t :=
  ((dat1 V c).before_in_eq_fetched 1 rfl (fun _ => rfl) (fun _ _ _ => rfl) (fun t => by rw [after1_1]; unfold Dat.blockOf tile1; rw [A_eq1]; try rfl) t d).trans
    (by unfold Dat.fetched Dat.blockOf tile1; rw [A_eq1]; try rfl)
theorem before1_2 (c : Dev nD) (t : Fin cfg1.N) (d) : (dat1 V c).before 2 t d = tile1 V c 2 t :=
  ((dat1 V c).before_in_eq_fetched 2 rfl (fun _ => rfl) (fun _ _ _ => rfl) (fun t => by rw [after1_2]; unfold Dat.blockOf tile1; rw [A_eq1]; try rfl) t d).trans
    (by unfold Dat.fetched Dat.blockOf tile1; rw [A_eq1]; try rfl)
theorem before1_3 (c : Dev nD) (t : Fin cfg1.N) (d) : (dat1 V c).before 3 t d = tile1 V c 3 t :=
  ((dat1 V c).before_in_eq_fetched 3 rfl (fun _ => rfl) (fun _ _ _ => rfl) (fun t => by rw [after1_3]; unfold Dat.blockOf tile1; rw [A_eq1]; try rfl) t d).trans
    (by unfold Dat.fetched Dat.blockOf tile1; rw [A_eq1]; try rfl)
theorem before1_4 (c : Dev nD) (t : Fin cfg1.N) (d) : (dat1 V c).before 4 t d = tile1 V c 4 t :=
  ((dat1 V c).before_in_eq_fetched 4 rfl (fun _ => rfl) (fun _ _ _ => rfl) (fun t => by rw [after1_4]; unfold Dat.blockOf tile1; rw [A_eq1]; try rfl) t d).trans
    (by unfold Dat.fetched Dat.blockOf tile1; rw [A_eq1]; try rfl)

end Cert.KernelIdeal.Seg

end
-- ==== Proof.SegBody0.lean ====
/-
  The first launch's body at one grid point, by control case, and the body obligation.

  The body has two conditionals on the tile's position in its half: at the FIRST tile it stores the zero array
  into the scratch before anything else; at the LAST it copies the scratch into the result block after everything
  else. In between it always loads the tile's rows and ids and the scratch, and stores the scratch plus the tile's
  one-hot product back. So on whole buffers holding rows x, ids z, a result block o and a scratch s it leaves
    first, not last : o untouched, scratch = step x z 0
    neither         : o untouched, scratch = step x z s
    last, not first : o = the scratch re-laid, scratch = step x z s
  where step is the skeleton's payload. A half has 245 tiles, so no tile is both first and last.
-/
import proofs.«431016_j89206470738329_1_alg».proof.Proof.SegVals
import Idealize.ShloMosaic.Lib.Pipeline.Value

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros1 : (![0] : Fin 1 → Nat) = fun _ => 0 := funext fun a => by fin_cases a <;> rfl
theorem zeros3 : (![0, 0, 0] : Fin 3 → Nat) = fun _ => 0 := funext fun a => by fin_cases a <;> rfl

/-! ## The three cases -/

set_option maxHeartbeats 2000000 in
/-- Neither first nor last: the scratch gains the tile's product. -/
theorem run_mid (c : Dev nD) (i : grid0.Coords) (arg2 : Memref sig .tc .vmem S1024x128 .f32) (harg2 : arg2.IsWhole) (arg3 : Memref sig .tc .vmem S1024 .i32) (harg3 : arg3.IsWhole) (arg4 : Memref sig .tc .vmem S1x1024x128 .f32) (harg4 : arg4.IsWhole) (arg5 : Memref sig .tc .vmem S1024x128 .f32) (harg5 : arg5.IsWhole)
    (hf : ¬isFirst i) (hl : ¬isLast i)
    (x0 : Vec F S1024x128 .f32) (z0 : Vec F S1024 .i32) (o0 : Vec F S1x1024x128 .f32) (s0 : Vec F S1024x128 .f32) (E : Set ℕ) (K : PUnit → sProp 𝕄) :
    iprop(owns (c : Thread nD τ) arg2 fullShare x0 ∗ owns (c : Thread nD τ) arg3 fullShare z0 ∗ owns (c : Thread nD τ) arg4 fullShare o0 ∗ owns (c : Thread nD τ) arg5 fullShare s0
        ∗ (iprop(owns (c : Thread nD τ) arg2 fullShare x0 ∗ owns (c : Thread nD τ) arg3 fullShare z0 ∗ owns (c : Thread nD τ) arg4 fullShare o0 ∗ owns (c : Thread nD τ) arg5 fullShare (k0_pay2 x0 z0 s0)) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_singleton_self _, View.mem_set_unit_zero zeros2 Facts₀.inb_S1024x128_S1024x128_0_0 y⟩),
    View.canon_unit_zero zeros2]
  simp only [View.readAt_eq_ld, harg2.read_unread, harg3.read_unread, harg5.read_unread,
    View.ld_unit_zero (S := S1024x128) zeros2, View.ld_unit_zero (S := S1024) zeros1]

set_option maxHeartbeats 2000000 in
/-- First tile of a half: the scratch restarts from the zero array, whatever it held. -/
theorem run_first (c : Dev nD) (i : grid0.Coords) (arg2 : Memref sig .tc .vmem S1024x128 .f32) (harg2 : arg2.IsWhole) (arg3 : Memref sig .tc .vmem S1024 .i32) (harg3 : arg3.IsWhole) (arg4 : Memref sig .tc .vmem S1x1024x128 .f32) (harg4 : arg4.IsWhole) (arg5 : Memref sig .tc .vmem S1024x128 .f32) (harg5 : arg5.IsWhole)
    (hf : isFirst i) (hl : ¬isLast i)
    (x0 : Vec F S1024x128 .f32) (z0 : Vec F S1024 .i32) (o0 : Vec F S1x1024x128 .f32) (s0 : Vec F S1024x128 .f32) (E : Set ℕ) (K : PUnit → sProp 𝕄) :
    iprop(owns (c : Thread nD τ) arg2 fullShare x0 ∗ owns (c : Thread nD τ) arg3 fullShare z0 ∗ owns (c : Thread nD τ) arg4 fullShare o0 ∗ owns (c : Thread nD τ) arg5 fullShare s0
        ∗ (iprop(owns (c : Thread nD τ) arg2 fullShare x0 ∗ owns (c : Thread nD τ) arg3 fullShare z0 ∗ owns (c : Thread nD τ) arg4 fullShare o0 ∗ owns (c : Thread nD τ) arg5 fullShare (k0_pay2 x0 z0 (k0_pay1 (F := F)))) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_run_names
  rw [View.read_writes_eq_canon _ _ _ (fun y => ⟨_, List.mem_cons_self, View.mem_set_unit_zero zeros2 Facts₀.inb_S1024x128_S1024x128_0_0 y⟩),
    View.canon_cons_unit_zero zeros2, View.readCov_unit_zero (S := S1024x128) _ zeros2]
  simp only [View.readAt_eq_ld, harg2.read_unread, harg3.read_unread,
    View.ld_unit_zero (S := S1024x128) zeros2, View.ld_unit_zero (S := S1024) zeros1]

set_option maxHeartbeats 2000000 in
/-- Last tile of a half: the scratch gains the tile's product, and the result block takes the scratch re-laid. -/
theorem run_last (c : Dev nD) (i : grid0.Coords) (arg2 : Memref sig .tc .vmem S1024x128 .f32) (harg2 : arg2.IsWhole) (arg3 : Memref sig .tc .vmem S1024 .i32) (harg3 : arg3.IsWhole) (arg4 : Memref sig .tc .vmem S1x1024x128 .f32) (harg4 : arg4.IsWhole) (arg5 : Memref sig .tc .vmem S1024x128 .f32) (harg5 : arg5.IsWhole)
    (hf : ¬isFirst i) (hl : isLast i)
    (x0 : Vec F S1024x128 .f32) (z0 : Vec F S1024 .i32) (o0 : Vec F S1x1024x128 .f32) (s0 : Vec F S1024x128 .f32) (E : Set ℕ) (K : PUnit → sProp 𝕄) :
    iprop(owns (c : Thread nD τ) arg2 fullShare x0 ∗ owns (c : Thread nD τ) arg3 fullShare z0 ∗ owns (c : Thread nD τ) arg4 fullShare o0 ∗ owns (c : Thread nD τ) arg5 fullShare s0
        ∗ (iprop(owns (c : Thread nD τ) arg2 fullShare x0 ∗ owns (c : Thread nD τ) arg3 fullShare z0 ∗ owns (c : Thread nD τ) arg4 fullShare (k0_pay3 (k0_pay2 x0 z0 s0)) ∗ owns (c : Thread nD τ) arg5 fullShare (k0_pay2 x0 z0 s0)) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_singleton_self _, View.mem_set_unit_zero zeros3 Facts₀.inb_S1x1024x128_S1x1024x128_0_0_0 y⟩),
      View.canon_unit_zero zeros3, View.readCov_unit_zero (S := S1024x128) _ zeros2]
    simp only [View.readAt_eq_ld, harg2.read_unread, harg3.read_unread, harg5.read_unread,
      View.ld_unit_zero (S := S1024x128) zeros2, View.ld_unit_zero (S := S1024) zeros1]
  iexists _; isplitr
  swap; · iexact H3
  ipureintro
  sl_unfold_run_names
  rw [View.read_writes_eq_canon _ _ _ (fun y => ⟨_, List.mem_singleton_self _, View.mem_set_unit_zero zeros2 Facts₀.inb_S1024x128_S1024x128_0_0 y⟩),
    View.canon_unit_zero zeros2]
  simp only [View.readAt_eq_ld, harg2.read_unread, harg3.read_unread, harg5.read_unread,
    View.ld_unit_zero (S := S1024x128) zeros2, View.ld_unit_zero (S := S1024) zeros1]

/-! ## The body obligation at a generic point -/

variable (V : (c : Dev nD) → (b : Ref sig .tc) → Buf (Elt F) ((c : Thread nD τ).loc b))

/-- Each window's current staging memref at point `t`, spelt as the pipeline passes it. -/
abbrev ms0_0 (t : Fin cfg0.N) : Memref sig .tc .vmem S1024x128 .f32 := win0_0.stage (cfg0.slots t 0)
abbrev ms0_1 (t : Fin cfg0.N) : Memref sig .tc .vmem S1024 .i32 := win0_1.stage (cfg0.slots t 1)
abbrev ms0_2 (t : Fin cfg0.N) : Memref sig .tc .vmem S1x1024x128 .f32 := win0_2.stage (cfg0.slots t 2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem leaves0_0 (c : Dev nD) (t : Fin cfg0.N) :
    (dat0 V c).leavesExact 0 t = owns (c : Thread nD τ) (ms0_0 t) fullShare (tile0 V c 0 t) := by
  unfold Dat.leavesExact; rw [live0_0 t, after0_0]
theorem leaves0_1 (c : Dev nD) (t : Fin cfg0.N) :
    (dat0 V c).leavesExact 1 t = owns (c : Thread nD τ) (ms0_1 t) fullShare (tile0 V c 1 t) := by
  unfold Dat.leavesExact; rw [live0_1 t, after0_1]
theorem leaves0_2_last (c : Dev nD) (t : Fin cfg0.N) (h : isLast (grid0.coords t)) :
    (dat0 V c).leavesExact 2 t = owns (c : Thread nD τ) (ms0_2 t) fullShare (k0_pay3 (sums V c t.val t.isLt)) := by
  unfold Dat.leavesExact; rw [live0_2 t h, after0_2]

set_option maxHeartbeats 4000000 in
/-- The body at any point: the closed forms say which case the point is in; the invariant hands the body the scratch
    at what the tile before left (at anything before the very first tile) and takes it back at this tile's running
    sums; the result window is handed back untouched away from a half's last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1]
  have hN : t.val < 490 := lt_of_lt_of_eq t.isLt (show cfg0.N = 490 from N_0)
  by_cases h0 : t.val % 245 = 0
  · have h1 : ¬t.val % 245 = 244 := by omega
    have hF : isFirst (grid0.coords t) := (isFirst_iff t).mpr h0
    have hL : ¬isLast (grid0.coords t) := fun h => h1 ((isLast_iff t).mp h)
    rw [Dat.leavesExact_idle (dat0 V c) 2 t (idle0_2 t hL) (noFlush0_2 t hL), sums_first V c t h0]
    by_cases hz : t.val = 0
    · rw [Phi0_castSucc V c t, PhiS_zero V c _ _ hz, PhiA0_eq]; unfold restWith
      iintro ⟨⟨⟨⟨%s, HS⟩, Hid⟩, Hg⟩, Ho, ⟨%d0, H0⟩, ⟨%d1, H1⟩, ⟨%d2, H2⟩⟩
      iapply (run_first c (grid0.coords t) _ _ _ _ _ _ _ _ hF hL (tile0 V c 0 t) (tile0 V c 1 t) _ s Set.univ _)
      isplitl [H0]; · iexact H0
      isplitl [H1]; · iexact H1
      isplitl [H2]; · iexact H2
      isplitl [HS]; · iexact HS
      iintro ⟨H0, H1, H2, HS⟩
      isplitl [HS Hid Hg]
      · isplitl [HS Hid]
        · isplitl [HS]; · iexact HS
          iexact Hid
        iexact Hg
      isplitl [Ho]; · iexact Ho
      isplitl [H0]; · iexact H0
      isplitl [H1]; · iexact H1
      iexists _; iexact H2
    · rw [Phi0_castSucc V c t, PhiS_pos V c _ _ hz]; unfold restWith
      iintro ⟨⟨⟨HS, Hid⟩, Hg⟩, Ho, ⟨%d0, H0⟩, ⟨%d1, H1⟩, ⟨%d2, H2⟩⟩
      iapply (run_first c (grid0.coords t) _ _ _ _ _ _ _ _ hF hL (tile0 V c 0 t) (tile0 V c 1 t) _ _ Set.univ _)
      isplitl [H0]; · iexact H0
      isplitl [H1]; · iexact H1
      isplitl [H2]; · iexact H2
      isplitl [HS]; · iexact HS
      iintro ⟨H0, H1, H2, HS⟩
      isplitl [HS Hid Hg]
      · isplitl [HS Hid]
        · isplitl [HS]; · iexact HS
          iexact Hid
        iexact Hg
      isplitl [Ho]; · iexact Ho
      isplitl [H0]; · iexact H0
      isplitl [H1]; · iexact H1
      iexists _; iexact H2
  · have hz : t.val ≠ 0 := fun e => h0 (by rw [e])
    have hF : ¬isFirst (grid0.coords t) := fun h => h0 ((isFirst_iff t).mp h)
    rw [Phi0_castSucc V c t, PhiS_pos V c _ _ hz, sums_next V c t h0]; unfold restWith
    by_cases h1 : t.val % 245 = 244
    · have hL : isLast (grid0.coords t) := (isLast_iff t).mpr h1
      rw [leaves0_2_last V c t hL, sums_next V c t h0]
      iintro ⟨⟨⟨HS, Hid⟩, Hg⟩, Ho, ⟨%d0, H0⟩, ⟨%d1, H1⟩, ⟨%d2, H2⟩⟩
      iapply (run_last c (grid0.coords t) _ _ _ _ _ _ _ _ hF hL (tile0 V c 0 t) (tile0 V c 1 t) _ _ Set.univ _)
      isplitl [H0]; · iexact H0
      isplitl [H1]; · iexact H1
      isplitl [H2]; · iexact H2
      isplitl [HS]; · iexact HS
      iintro ⟨H0, H1, H2, HS⟩
      isplitl [HS Hid Hg]
      · isplitl [HS Hid]
        · isplitl [HS]; · iexact HS
          iexact Hid
        iexact Hg
      isplitl [Ho]; · iexact Ho
      isplitl [H0]; · iexact H0
      isplitl [H1]; · iexact H1
      iexact H2
    · have hL : ¬isLast (grid0.coords t) := fun h => h1 ((isLast_iff t).mp h)
      rw [Dat.leavesExact_idle (dat0 V c) 2 t (idle0_2 t hL) (noFlush0_2 t hL)]
      iintro ⟨⟨⟨HS, Hid⟩, Hg⟩, Ho, ⟨%d0, H0⟩, ⟨%d1, H1⟩, ⟨%d2, H2⟩⟩
      iapply (run_mid c (grid0.coords t) _ _ _ _ _ _ _ _ hF hL (tile0 V c 0 t) (tile0 V c 1 t) _ _ Set.univ _)
      isplitl [H0]; · iexact H0
      isplitl [H1]; · iexact H1
      isplitl [H2]; · iexact H2
      isplitl [HS]; · iexact HS
      iintro ⟨H0, H1, H2, HS⟩
      isplitl [HS Hid Hg]
      · isplitl [HS Hid]
        · isplitl [HS]; · iexact HS
          iexact Hid
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem Phi_in0 (c : Dev nD) : Pipeline.ΦA spec0 c ⊢ (dat0 V c).Φ 0 := by
  rw [show (dat0 V c).Φ 0 = PhiS V c 0 (Nat.zero_le _) from rfl, PhiS_zero V c 0 _ rfl]

/-- After the last tile the invariant gives the class's back: the scratch's contents are forgotten. -/
theorem Phi_out0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 490 := N_0; omega), PhiA0_eq]
  unfold restWith
  iintro ⟨⟨HS, Hid⟩, Hg⟩
  isplitl [HS Hid]
  · isplitl [HS]
    · iexists _; iexact HS
    iexact Hid
  iexact Hg

end Cert.KernelIdeal.Seg

end
-- ==== Proof.SegBody1.lean ====
/-
  The second launch's body at its one grid point, and the body obligation.

  On whole buffers holding the summed features h, the two weight matrices and the two bias vectors, the body loads
  all five (and the result buffer, which it does not use), and stores the two-layer perceptron of them into the
  result buffer: the skeleton's one payload. The operands' buffers are left as found.
-/
import proofs.«431016_j89206470738329_1_alg».proof.Proof.SegVals
import Idealize.ShloMosaic.Lib.Pipeline.Value

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zz2 : (![0, 0] : Fin 2 → Nat) = fun _ => 0 := funext fun a => by fin_cases a <;> rfl
theorem zz1 : (![0] : Fin 1 → Nat) = fun _ => 0 := funext fun a => by fin_cases a <;> rfl

set_option maxHeartbeats 2000000 in
theorem run_mlp (c : Dev nD) (i : grid1.Coords) (arg1 : Memref sig .tc .vmem S1024x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S1024x128 .f32) (harg6 : arg6.IsWhole)
    (x0 : Vec F S1024x128 .f32) (x1 : Vec F S128x256 .f32) (x2 : Vec F S256 .f32) (x3 : Vec F S256x128 .f32) (x4 : Vec F S128 .f32) (o0 : Vec F S1024x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare o0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [View.read_writes_eq_canon _ _ _ (fun y => ⟨_, List.mem_singleton_self _, View.mem_set_unit_zero zz2 Facts₀.inb_S1024x128_S1024x128_0_0 y⟩),
    View.canon_unit_zero zz2]
  simp only [View.readAt_eq_ld, harg1.read_unread, harg2.read_unread, harg3.read_unread, harg4.read_unread, harg5.read_unread,
    View.ld_unit_zero (S := S1024x128) zz2, View.ld_unit_zero (S := S128x256) zz2, View.ld_unit_zero (S := S256x128) zz2,
    View.ld_unit_zero (S := S256) zz1, View.ld_unit_zero (S := S128) zz1]

variable (V : (c : Dev nD) → (b : Ref sig .tc) → Buf (Elt F) ((c : Thread nD τ).loc b))

/-- Each window's current staging memref at point `t`, spelt as the pipeline passes it. -/
abbrev ms1_0 (t : Fin cfg1.N) : Memref sig .tc .vmem S1024x128 .f32 := win1_0.stage (cfg1.slots t 0)
abbrev ms1_1 (t : Fin cfg1.N) : Memref sig .tc .vmem S128x256 .f32 := win1_1.stage (cfg1.slots t 1)
abbrev ms1_2 (t : Fin cfg1.N) : Memref sig .tc .vmem S256 .f32 := win1_2.stage (cfg1.slots t 2)
abbrev ms1_3 (t : Fin cfg1.N) : Memref sig .tc .vmem S256x128 .f32 := win1_3.stage (cfg1.slots t 3)
abbrev ms1_4 (t : Fin cfg1.N) : Memref sig .tc .vmem S128 .f32 := win1_4.stage (cfg1.slots t 4)
abbrev ms1_5 (t : Fin cfg1.N) : Memref sig .tc .vmem S1024x128 .f32 := win1_5.stage (cfg1.slots t 5)

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (run_mlp c (grid1.coords t) _ _ _ _ _ _ _ _ _ _ _ _ (tile1 V c 0 t) (tile1 V c 1 t) (tile1 V c 2 t) (tile1 V c 3 t) (tile1 V c 4 t) _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at the point. -/
theorem body_obligation1 (c : Dev nD) : BodyObligation (dat1 (F := F) V c) (defs₀ (F := F)) Variants.none () Set.univ := fun t => by
  rw [bigSep_W1, bigSep_W1]
  exact sound_body1 V c t

end Cert.KernelIdeal.Seg

end
-- ==== Proof.SegRun.lean ====
/-
  The whole run. @main is: four short host stretches (two padding calls: the feature rows padded with zero
  rows and the district ids padded with the out-of-range id 1024, up to 490 tiles of 1024 rows), the first launch,
  one host stretch (the two halves' partial sums added), the second launch.

  Between two items every unscoped buffer is held at contents computed from the launch memory: a host stretch
  applies its operations; a launch changes only its result array, to what its write-backs leave (the proof data's
  array after the last point). Each launch is a segment record over those contents; the argument arrays are never
  written, and the program's result is what the second launch leaves in its result array.
-/
import proofs.«431016_j89206470738329_1_alg».proof.Proof.SegBody0
import proofs.«431016_j89206470738329_1_alg».proof.Proof.SegBody1
import proofs.«431016_j89206470738329_1_alg».proof.Proof.Gen.KernelIdeal.Regions

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at the launches' ends -/

/-- The first launch's entry contents: the launch memory after the four host stretches before it. -/
abbrev Vin0 : (c : Dev nD) → (b : Ref sig .tc) → Buf (Elt F) ((c : Thread nD τ).loc b) := fun c b => Gen.V4 m c b

/-- What the first launch leaves, buffer by buffer: its result array at the write-backs' fold, the rest as entered. -/
def left0 (c : Dev nD) : Valuation τ sig (Elt F) :=
  Pipeline.withArrays spec0 c (Gen.V4 m c) fun w => (dat0 (Vin0 m) c).arrAt w cfg0.N

/-- The contents after the first launch and the host stretch behind it: the second launch's entry contents. -/
abbrev mid (c : Dev nD) : Valuation τ sig (Elt F) :=
  StableHlo.after hostOps1 (Function.update (Gen.V4 m c) main_v2 (left0 m c main_v2))
abbrev Vin1 : (c : Dev nD) → (b : Ref sig .tc) → Buf (Elt F) ((c : Thread nD τ).loc b) := fun c b => mid m c b

/-- What the second launch leaves. -/
def left1 (c : Dev nD) : Valuation τ sig (Elt F) :=
  Pipeline.withArrays spec1 c (mid m c) fun w => (dat1 (Vin1 m) c).arrAt w cfg1.N

/-- The launches' results, as the generated boundary contents read them (item 5 reads the first launch's result
    array, item 7 the second's). -/
def outs : Gen.Outs (F := F) := fun n r c => if n = 5 then left0 m c r else left1 m c r

theorem V6_eq (c : Dev nD) : Gen.V6 m (outs m) c = mid m c := rfl

abbrev Vout0 : (c : Dev nD) → (b : Ref sig .tc) → Buf (Elt F) ((c : Thread nD τ).loc b) := fun c b => Gen.V5 m (outs m) c b
abbrev Vout1 : (c : Dev nD) → (b : Ref sig .tc) → Buf (Elt F) ((c : Thread nD τ).loc b) := fun c b => Gen.V7 m (outs m) c b

/-- Every pipeline's proof data, each at its launch's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- The first launch's result array ends at the fold of its write-backs. -/
theorem out0_eq (c : Dev nD) : Gen.V5 m (outs m) c main_v2 = (dat0 (Vin0 m) c).arrAt 2 cfg0.N := by
  show Function.update (Gen.V4 m c) (Proc.devRef .tc main_v2) (left0 m c main_v2) (Proc.devRef .tc main_v2) = _
  rw [Function.update_self]
  exact Pipeline.withArrays_arr spec0 launch0.win.arr_inj c _ _ 2
/-- The second launch's result array ends at the fold of its write-backs. -/
theorem out1_eq (c : Dev nD) : Gen.V7 m (outs m) c main_v4 = (dat1 (Vin1 m) c).arrAt 5 cfg1.N := by
  show Function.update (Gen.V6 m (outs m) c) (Proc.devRef .tc main_v4) (left1 m c main_v4) (Proc.devRef .tc main_v4) = _
  rw [Function.update_self]
  exact Pipeline.withArrays_arr spec1 launch1.win.arr_inj c _ _ 5

/-- At a launch's exit each of its arrays holds what the pipeline leaves and every other buffer what it held at
    entry. -/
theorem hF0 (c : Dev nD) : ∀ w : Fin cfg0.W, (pdats m 0 c).arrAt w cfg0.N = Vout0 m c (Pipeline.arrRef spec0 w)
  | ⟨0, _⟩ => ((dat0 (Vin0 m) c).arrAt_in 0 rfl _).trans ((A_eq0 (Vin0 m) c 0).trans (Gen.V5_of m (outs m) c main_v0 (by decide)).symm)
  | ⟨1, _⟩ => ((dat0 (Vin0 m) c).arrAt_in 1 rfl _).trans ((A_eq0 (Vin0 m) c 1).trans (Gen.V5_of m (outs m) c main_v1 (by decide)).symm)
  | ⟨2, _⟩ => (out0_eq m c).symm
theorem hrest0 (c : Dev nD) : ∀ b, b ∉ Finset.univ.image (Pipeline.arrRef spec0) → Vout0 m c b = Vin0 m c b :=
  fun b hb => Gen.V5_of m (outs m) c b (by
    simp only [List.mem_singleton]
    exact fun e => hb (Finset.mem_image.mpr ⟨2, Finset.mem_univ _, e.symm⟩))
theorem hF1 (c : Dev nD) : ∀ w : Fin cfg1.W, (pdats m 1 c).arrAt w cfg1.N = Vout1 m c (Pipeline.arrRef spec1 w)
  | ⟨0, _⟩ => ((dat1 (Vin1 m) c).arrAt_in 0 rfl _).trans ((A_eq1 (Vin1 m) c 0).trans (Gen.V7_of m (outs m) c main_v3 (by decide)).symm)
  | ⟨1, _⟩ => ((dat1 (Vin1 m) c).arrAt_in 1 rfl _).trans ((A_eq1 (Vin1 m) c 1).trans (Gen.V7_of m (outs m) c main_arg2 (by decide)).symm)
  | ⟨2, _⟩ => ((dat1 (Vin1 m) c).arrAt_in 2 rfl _).trans ((A_eq1 (Vin1 m) c 2).trans (Gen.V7_of m (outs m) c main_arg3 (by decide)).symm)
  | ⟨3, _⟩ => ((dat1 (Vin1 m) c).arrAt_in 3 rfl _).trans ((A_eq1 (Vin1 m) c 3).trans (Gen.V7_of m (outs m) c main_arg4 (by decide)).symm)
  | ⟨4, _⟩ => ((dat1 (Vin1 m) c).arrAt_in 4 rfl _).trans ((A_eq1 (Vin1 m) c 4).trans (Gen.V7_of m (outs m) c main_arg5 (by decide)).symm)
  | ⟨5, _⟩ => (out1_eq m c).symm
theorem hrest1 (c : Dev nD) : ∀ b, b ∉ Finset.univ.image (Pipeline.arrRef spec1) → Vout1 m c b = Vin1 m c b :=
  fun b hb => Gen.V7_of m (outs m) c b (by
    simp only [List.mem_singleton]
    exact fun e => hb (Finset.mem_image.mpr ⟨5, Finset.mem_univ _, e.symm⟩))

/-! ## The launches as segments -/

/-- No core owes another anything: no level is assigned. -/
abbrev Lz : GSem nD τ sig → Finset Unit := fun _ => ∅
abbrev lvz : GSem nD τ sig → Unit → ℕ := fun _ _ => 0
/-- What rides beside the buffers through every item: the generator register at some state, nothing owed. -/
abbrev Rz (c : Dev nD) : sProp 𝕄 := iprop((∃ r, prngReg c r) ∗ ∃ W, owes (c : Thread nD τ) (0 : CellTallies nD τ sig Unit) W)

-- the library's array lemmas are stated over the pinned configuration: matching them takes unfolding plain definitions
-- in a metavariable's type
set_option backward.isDefEq.respectTransparency.types false in
/-- Launch 0 as a segment: its arrays split out of the unscoped buffers at entry and put back at the exit contents;
    the generator register into the invariant and out; nothing owed; no semaphore of the kernel's own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (Gen.V4 m c) ∗ Rz c)
  post c := iprop(StableHlo.held (c : Thread nD τ) (Pipeline.ucRefs τ sig) (Gen.V5 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi_in0 (Vin0 m) c)
    unfold Pipeline.ΦA
    iintro ⟨Hp, -, Hr⟩
    isplitl [Hr]; · iexact Hr
    iexact Hp
  hout c := by
    rw [Pipeline.ownSems0_none]
    refine (Phi_out0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's array lemmas are stated over the pinned configuration: matching them takes unfolding plain definitions
-- in a metavariable's type
set_option backward.isDefEq.respectTransparency.types false in
/-- Launch 1 as a segment: its arrays split out of the unscoped buffers at entry and put back at the exit contents;
    the generator register into the invariant and out; nothing owed; no semaphore of the kernel's own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (mid m c) ∗ Rz c)
  post c := iprop(StableHlo.held (c : Thread nD τ) (Pipeline.ucRefs τ sig) (Gen.V7 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

-- the conditional frame's implicit arguments are found by unifying its conclusion with this one
set_option backward.isDefEq.respectTransparency.types false in
/-- Every weakly fair execution of @main terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb (UR sig nD τ) 𝕄) () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rz c)
    (hE0 := by
      refine Pipeline.initEach Lz lvz fun c => ?_
      iintro ⟨⟨-, HO, -, Hp, -⟩, -⟩
      imodintro
      isplitl [Hp]; · iexists _; iexact Hp
      iexists ∅; iexact HO)
    (hE2 := fun c => by iintro ⟨-, H⟩; iexact H)
    (reg0 m) (fun c => .rfl) (fun c => .rfl) (reg1 m) (fun c => .rfl) (fun c => .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run with its result -/

-- the launch theorem's implicit arguments are found by unifying its conclusion with this one
set_option backward.isDefEq.respectTransparency.types false in
/-- Every weakly fair execution of @main terminates, nothing faulting, with the result array at what the second
    launch's write-back leaves and the argument arrays unchanged: the several-launch run over the two segment
    records, the last thread state read against the final memory. -/
theorem run_val : θ_run defs (onTc (τ := τ) (main (F := F))) ⟨m, fun _ => 0, ρ⟩ (fun r => ∀ c : Dev nD,
      r.2.mem ((c.tc : Thread nD τ).loc main_v4) = (dat1 (Vin1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj (emb₁ : Emb (UR sig nD τ) 𝕄) defs₀ Variants.none Lz lvz m ρ main
    (Gen.segs m (outs m) Variants.none Lz lvz (fun _ c => Rz c) () (pdats m) (reg0 m) (reg1 m))
    (fun c Q => by
      rewrite [main_chain c, Seg.run_eq_chain,
        show (Gen.segs m (outs m) Variants.none Lz lvz (fun _ c => Rz c) () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rz c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (by iintro ⟨-, H⟩; iexact H)⟩)
    (hinit := ?_) (QY := fun c s => ∀ b ∈ Pipeline.ucRefs τ sig, s.mem (((c : Thread nD τ)).1, b) = Gen.V7 m (outs m) c b)
    (hfin := fun c s' => by
      iintro ⟨Hh, HSI⟩
      unfold StableHlo.held
      imodintro
      iapply (pointsTo_read_all (Pipeline.ucRefs τ sig) (fun b => (((c : Thread nD τ)).1, b)) (Gen.V7 m (outs m) c) s')
      isplitl [Hh] <;> iassumption)
    (hQ := fun s h c =>
      ⟨(h c _ (mem_uc main_v4 (by decide))).trans (out1_eq m c),
        (h c _ (mem_uc main_arg0 (by decide))).trans (Gen.V7_main_arg0 m (outs m) c),
        (h c _ (mem_uc main_arg1 (by decide))).trans (Gen.V7_main_arg1 m (outs m) c),
        (h c _ (mem_uc main_arg2 (by decide))).trans (Gen.V7_main_arg2 m (outs m) c),
        (h c _ (mem_uc main_arg3 (by decide))).trans (Gen.V7_main_arg3 m (outs m) c),
        (h c _ (mem_uc main_arg4 (by decide))).trans (Gen.V7_main_arg4 m (outs m) c),
        (h c _ (mem_uc main_arg5 (by decide))).trans (Gen.V7_main_arg5 m (outs m) c)⟩)
  · -- the launch: the unscoped buffers are held at the launch contents; the generator register and the empty debt ride along
    have hride : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts Lz lvz)
        ⊢ (|={Set.univ}=> bigSep Finset.univ (fun c : Dev nD => Rz c) : sProp 𝕄) := by
      refine Pipeline.initEach Lz lvz fun c => ?_
      iintro ⟨⟨-, HO, -, Hp, -⟩, -⟩
      imodintro
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hride $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (fun c : Dev nD => Rz c)]
    isplitl [Hh]; · iexact Hh
    iexact HE

end Cert.KernelIdeal.Seg

end
-- ==== Proof.ValSpec.lean ====
/-
  The mathematics of the first launch over plain arrays of extended reals.

  The 500000 feature rows are padded with zero rows, and their district ids with the id 1024, up to 501760 rows:
  490 tiles of 1024 rows, tiles 0..244 the first half, 245..489 the second. A tile contributes to district d, at
  feature j, the sum of its rows whose id is d; a half's sum is the sum of its 245 tiles' contributions (each taken
  up as 0 + contribution, the way the matrix unit's zero accumulator enters); the kernel's summed features are
  0 + the two halves' sums.
-/
import proofs.«431016_j89206470738329_1_alg».proof.Proof.Gen.KernelIdeal
import Idealize.ShloMosaic.Lib.ValueIdx
import Idealize.ShloMosaic.PureOps.Ideal

noncomputable section

namespace Cert.KernelIdeal.Val

open Idealize.ShloMosaic Idealize.ShloMosaic.TcCoe Idealize.ShloMosaic.ValueIdx Idealize.SL.Sem
open Cert.KernelIdeal Cert.KernelIdeal.Gen

/-- One if the id word is district `d`'s, else zero. -/
def hot (w : BitVec 32) (d : Fin 1024) : EReal := if w = BitVec.ofNat 32 d.val then 1 else 0

/-- One tile's contribution to district `d`, feature `j`: the tile's rows whose id is `d`, summed. -/
def tileSum (x : S1024x128.Idx → EReal) (z : S1024.Idx → BitVec 32) (d : Fin 1024) (j : Fin 128) : EReal :=
  ∑ n : Fin 1024, hot (z (ix1 n)) d * x (ix2 n j)

/-- Row `n` of tile `t`, as a row of the padded arrays. -/
def rowOf (t : Fin 490) (n : Fin 1024) : Fin 501760 := ⟨t.val * 1024 + n.val, by omega⟩
/-- Tile `k` of half `p`. -/
def tileOf (p : Fin 2) (k : Fin 245) : Fin 490 := ⟨p.val * 245 + k.val, by omega⟩

/-- Tile `t` of a padded feature array, and of a padded id array. -/
def tileX (xp : S501760x128.Idx → EReal) (t : Fin 490) : S1024x128.Idx → EReal := fun i => xp (ix2 (rowOf t (i 0)) (i 1))
def tileZ (zp : S501760.Idx → BitVec 32) (t : Fin 490) : S1024.Idx → BitVec 32 := fun i => zp (ix1 (rowOf t (i 0)))

/-- The feature rows padded with zero rows; the ids padded with the id 1024. -/
def padX (x : S500000x128.Idx → EReal) : S501760x128.Idx → EReal :=
  fun i => if h : (i 0).val < 500000 then x (ix2 ⟨(i 0).val, h⟩ (i 1)) else 0
def padZ (z : S500000.Idx → BitVec 32) : S501760.Idx → BitVec 32 :=
  fun i => if h : (i 0).val < 500000 then z (ix1 ⟨(i 0).val, h⟩) else 1024#32

/-- A half's running sums after its last tile. -/
def halfSum (xp : S501760x128.Idx → EReal) (zp : S501760.Idx → BitVec 32) (p : Fin 2) (d : Fin 1024) (j : Fin 128) : EReal :=
  ∑ k : Fin 245, (0 + tileSum (tileX xp (tileOf p k)) (tileZ zp (tileOf p k)) d j)

/-- The kernel's summed features: zero plus the two halves. -/
def headK (xp : S501760x128.Idx → EReal) (zp : S501760.Idx → BitVec 32) (d : Fin 1024) (j : Fin 128) : EReal :=
  0 + ∑ p : Fin 2, halfSum xp zp p d j

end Cert.KernelIdeal.Val

end
-- ==== Proof.ValData.lean ====
/-
  The first launch's result array, named as a plain array of extended reals (so that sums over its entries are
  sums of extended reals).
-/
import proofs.«431016_j89206470738329_1_alg».proof.Proof.SegVals
import proofs.«431016_j89206470738329_1_alg».proof.Proof.ValSpec

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Seg

variable (V : (c : Dev nD) → (b : Ref sig .tc) → Buf (Elt Ideal) ((c : Thread nD τ).loc b))

/-- What the first launch leaves in its 2 x 1024 x 128 result array: the fold of its write-backs. -/
def part (c : Dev nD) : S2x1024x128.Idx → EReal := (dat0 V c).arrAt 2 cfg0.N

end Cert.KernelIdeal.Val

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.ValStep.lean ====
/-
  The first launch's three payloads read at an index, at the ideal instance.

  The tile's one-hot matrix has a one at (n, d) exactly when row n's district id is the word d; its product with
  the tile's rows, contracted over the 1024 rows, adds to district d's feature j the rows whose id is d. So one
  step takes the running sums s to  s + (0 + sum over the tile's rows n with id d of x n j).
-/
import proofs.«431016_j89206470738329_1_alg».proof.Proof.Gen.KernelIdeal.Skeleton
import proofs.«431016_j89206470738329_1_alg».proof.Proof.ValSpec
import proofs.«431016_j89206470738329_1_alg».proof.Proof.LibColumn
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen

/-! The matrix product contracts axis 0 of both operands: the operand indices, coordinate by coordinate. -/

theorem step_lhs_0 (i : S1024x128.Idx) (q : dot_S1024x1024_S1024x128_S1024x128_0_0_1_1_n_n.contr.Idx) :
    (dot_S1024x1024_S1024x128_S1024x128_0_0_1_1_n_n.lhsIdx i q 0).val = (q ⟨0, by decide⟩).val :=
  dot_S1024x1024_S1024x128_S1024x128_0_0_1_1_n_n.lhsIdx_val_of_single rfl i q
theorem step_lhs_1 (i : S1024x128.Idx) (q : dot_S1024x1024_S1024x128_S1024x128_0_0_1_1_n_n.contr.Idx) :
    (dot_S1024x1024_S1024x128_S1024x128_0_0_1_1_n_n.lhsIdx i q 1).val = (i 0).val := by
  unfold DotDims.lhsIdx
  rw [dif_neg (show ¬(1 : Fin S1024x1024.rank) ∈ dot_S1024x1024_S1024x128_S1024x128_0_0_1_1_n_n.lhsBatch by decide), dif_pos (show (1 : Fin S1024x1024.rank) ∈ dot_S1024x1024_S1024x128_S1024x128_0_0_1_1_n_n.lhsNonContracting by decide)]
  rfl
theorem step_rhs_0 (i : S1024x128.Idx) (q : dot_S1024x1024_S1024x128_S1024x128_0_0_1_1_n_n.contr.Idx) :
    (dot_S1024x1024_S1024x128_S1024x128_0_0_1_1_n_n.rhsIdx i q 0).val = (q ⟨0, by decide⟩).val :=
  dot_S1024x1024_S1024x128_S1024x128_0_0_1_1_n_n.rhsIdx_val_of_single rfl i q
theorem step_rhs_1 (i : S1024x128.Idx) (q : dot_S1024x1024_S1024x128_S1024x128_0_0_1_1_n_n.contr.Idx) :
    (dot_S1024x1024_S1024x128_S1024x128_0_0_1_1_n_n.rhsIdx i q 1).val = (i 1).val := by
  unfold DotDims.rhsIdx
  rw [dif_neg (show ¬(1 : Fin S1024x128.rank) ∈ dot_S1024x1024_S1024x128_S1024x128_0_0_1_1_n_n.rhsBatch by decide), dif_pos (show (1 : Fin S1024x128.rank) ∈ dot_S1024x1024_S1024x128_S1024x128_0_0_1_1_n_n.rhsNonContracting by decide)]
  rfl

/-- The one-hot matrix read at (n, d): one when row n's id word is d's, else zero. -/
theorem step_onehot_apply (z : S1024.Idx → BitVec 32) (n d : Fin 1024) :
    (sitofp .f32 (extui 32 (cmpi .eq
        (broadcastTo S1024x1024 (shapeCast S1024x1 z shapeCasts_S1024_S1024x1) broadcasts_S1024x1_S1024x1024)
        (iota .tc S1024x1024 32 [1] iota_S1024x1024_d1_w32)) natLt_1_32) : FVec Ideal S1024x1024 .f32) (ix2 n d)
      = hot (z (ix1 n)) d := by
  rw [sitofp_apply, extui_apply]
  show FloatOps.sitofp .f32 ((IntOp.cmpi .eq
      (broadcastTo S1024x1024 (shapeCast S1024x1 z shapeCasts_S1024_S1024x1) broadcasts_S1024x1_S1024x1024 (ix2 n d))
      (iota .tc S1024x1024 32 [1] iota_S1024x1024_d1_w32 (ix2 n d))).setWidth 32) = _
  rw [Cert.LibColumn.broadcastTo_a1_ab_apply, Cert.LibColumn.shapeCast_a_a1_apply, iota_single_apply]
  unfold hot
  show _ = if z (ix1 n) = BitVec.ofNat 32 d.val then (1 : EReal) else 0
  by_cases h : z (ix1 n) = BitVec.ofNat 32 d.val
  · rw [if_pos h, IntOp.cmpi_eq.mpr h]
    show ((((BitVec.setWidth 32 1#1).toInt : ℤ) : ℝ) : EReal) = 1
    have h1 : (BitVec.setWidth 32 1#1).toInt = 1 := by decide
    rw [h1]
    norm_num
  · rw [if_neg h, eq_zero_of_ne_one (mt IntOp.cmpi_eq.mp h)]
    show ((((BitVec.setWidth 32 0#1).toInt : ℤ) : ℝ) : EReal) = 0
    have h0 : (BitVec.setWidth 32 0#1).toInt = 0 := by decide
    rw [h0]
    norm_num

/-- The restart value is the zero array. -/
theorem zero_apply (d : Fin 1024) (j : Fin 128) : (k0_pay1 (F := Ideal)) (ix2 d j) = (0 : EReal) := by
  unfold k0_pay1
  simp only [shapeCast_self]
  exact Ideal.ofBits_zero_f32

/-- One step adds the tile's contribution. -/
theorem step_apply (x : S1024x128.Idx → EReal) (z : S1024.Idx → BitVec 32) (s : S1024x128.Idx → EReal) (d : Fin 1024) (j : Fin 128) :
    k0_pay2 (F := Ideal) x z s (ix2 d j) = s (ix2 d j) + (0 + tileSum x z d j) := by
  unfold k0_pay2
  simp only [shapeCast_self]
  rw [addf_apply]
  simp only [matmul]
  rw [Ideal.matmul_constant_zero_apply, ← Equiv.sum_comp (contrEquiv1 dot_S1024x1024_S1024x128_S1024x128_0_0_1_1_n_n 1024 rfl rfl).symm]
  unfold tileSum
  rw [zero_add]
  congr 1
  refine Finset.sum_congr rfl fun n _ => ?_
  have hn := contrEquiv1_symm_val dot_S1024x1024_S1024x128_S1024x128_0_0_1_1_n_n 1024 rfl rfl n
  have el : dot_S1024x1024_S1024x128_S1024x128_0_0_1_1_n_n.lhsIdx (ix2 d j) ((contrEquiv1 dot_S1024x1024_S1024x128_S1024x128_0_0_1_1_n_n 1024 rfl rfl).symm n) = ix2 n d := funext fun a => Fin.ext (by
    match a with
    | ⟨0, _⟩ => exact (step_lhs_0 _ _).trans hn
    | ⟨1, _⟩ => exact step_lhs_1 _ _)
  have er : dot_S1024x1024_S1024x128_S1024x128_0_0_1_1_n_n.rhsIdx (ix2 d j) ((contrEquiv1 dot_S1024x1024_S1024x128_S1024x128_0_0_1_1_n_n 1024 rfl rfl).symm n) = ix2 n j := funext fun a => Fin.ext (by
    match a with
    | ⟨0, _⟩ => exact (step_rhs_0 _ _).trans hn
    | ⟨1, _⟩ => exact step_rhs_1 _ _)
  rw [el, er, truncf_apply, truncf_apply, step_onehot_apply]

/-- The result block is the running sums, re-laid with a leading unit axis. -/
theorem relay_apply (s : S1024x128.Idx → EReal) (u : Fin 1) (d : Fin 1024) (j : Fin 128) :
    k0_pay3 (F := Ideal) s (ix3 u d j) = s (ix2 d j) := by
  unfold k0_pay3
  refine shapeCast_apply s _ _ _ ?_
  have hu : u.val = 0 := by omega
  rw [Shape.rowMajor_val_three, Shape.rowMajor_val_two]
  show d.val * 128 + j.val = (u.val * 1024 + d.val) * 128 + j.val
  omega

end Cert.KernelIdeal.Val

end
-- ==== Proof.ValTiles.lean ====
/-
  The windows' blocks read at an index, at the ideal instance.

  First launch: the index maps of the two input windows send grid point t to block t, so the block of 1024 rows at
  point t is rows 1024 t .. 1024 t + 1023 of the padded arrays. Second launch: every window's block at the one
  point is its whole array.
-/
import proofs.«431016_j89206470738329_1_alg».proof.Proof.SegVals
import proofs.«431016_j89206470738329_1_alg».proof.Proof.ValSpec
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Seg

variable (V : (c : Dev nD) → (b : Ref sig .tc) → Buf (Elt Ideal) ((c : Thread nD τ).loc b))

/-- The first launch's two input index maps, decided over the grid: point t's block index is t itself on the row
    axis, and zero on the feature axis. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 1) = t.val :=
  (by decide +kernel : ∀ t : Fin grid0.N, win0_1.index t (0 : Fin 1) = t.val)

/-- Tile `t`'s feature rows are rows 1024 t + n of the padded feature array. -/
theorem rows_eq (c : Dev nD) (t : Fin cfg0.N) :
    (rowsAt V c t : S1024x128.Idx → EReal) = tileX (V c main_v0) ⟨t.val, lt_of_lt_of_eq t.isLt N_0⟩ := by
  obtain ⟨e0, e1⟩ := idx0_0 t
  funext y
  show V c main_v0 (((cfg0.win 0).blk t).view.emb y) = V c main_v0 (ix2 (rowOf ⟨t.val, lt_of_lt_of_eq t.isLt N_0⟩ (y 0)) (y 1))
  congr 1
  funext a; apply Fin.ext
  match a with
  | ⟨0, _⟩ => show win0_0.index t (0 : Fin 2) * 1024 + 1 * (y 0).val = t.val * 1024 + (y 0).val; omega
  | ⟨1, _⟩ => show win0_0.index t (1 : Fin 2) * 128 + 1 * (y 1).val = (y 1).val; omega

/-- Tile `t`'s ids are entries 1024 t + n of the padded id array. -/
theorem ids_eq (c : Dev nD) (t : Fin cfg0.N) :
    (idsAt V c t : S1024.Idx → BitVec 32) = tileZ (V c main_v1) ⟨t.val, lt_of_lt_of_eq t.isLt N_0⟩ := by
  have e0 := idx0_1 t
  funext y
  show V c main_v1 (((cfg0.win 1).blk t).view.emb y) = V c main_v1 (ix1 (rowOf ⟨t.val, lt_of_lt_of_eq t.isLt N_0⟩ (y 0)))
  congr 1
  funext a; apply Fin.ext
  match a with
  | ⟨0, _⟩ => show win0_1.index t (0 : Fin 1) * 1024 + 1 * (y 0).val = t.val * 1024 + (y 0).val; omega

/-- The second launch's index maps, decided over its one point: every block index is zero. -/
theorem idx1_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 1) = 0 :=
  (by decide +kernel : ∀ t : Fin grid1.N, win1_2.index t (0 : Fin 1) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 1) = 0 :=
  (by decide +kernel : ∀ t : Fin grid1.N, win1_4.index t (0 : Fin 1) = 0)

/-- The second launch's five operand blocks are its whole operand arrays. -/
theorem tile1_0 (c : Dev nD) (t : Fin cfg1.N) : (tile1 V c 0 t : S1024x128.Idx → EReal) = V c main_v3 := by
  obtain ⟨e0, e1⟩ := idx1_0 t
  funext y
  show V c main_v3 (((cfg1.win 0).blk t).view.emb y) = V c main_v3 y
  congr 1
  funext a; apply Fin.ext
  match a with
  | ⟨0, _⟩ => show win1_0.index t (0 : Fin 2) * 1024 + 1 * (y 0).val = (y 0).val; omega
  | ⟨1, _⟩ => show win1_0.index t (1 : Fin 2) * 128 + 1 * (y 1).val = (y 1).val; omega
theorem tile1_1 (c : Dev nD) (t : Fin cfg1.N) : (tile1 V c 1 t : S128x256.Idx → EReal) = V c main_arg2 := by
  obtain ⟨e0, e1⟩ := idx1_1 t
  funext y
  show V c main_arg2 (((cfg1.win 1).blk t).view.emb y) = V c main_arg2 y
  congr 1
  funext a; apply Fin.ext
  match a with
  | ⟨0, _⟩ => show win1_1.index t (0 : Fin 2) * 128 + 1 * (y 0).val = (y 0).val; omega
  | ⟨1, _⟩ => show win1_1.index t (1 : Fin 2) * 256 + 1 * (y 1).val = (y 1).val; omega
theorem tile1_2 (c : Dev nD) (t : Fin cfg1.N) : (tile1 V c 2 t : S256.Idx → EReal) = V c main_arg3 := by
  have e0 := idx1_2 t
  funext y
  show V c main_arg3 (((cfg1.win 2).blk t).view.emb y) = V c main_arg3 y
  congr 1
  funext a; apply Fin.ext
  match a with
  | ⟨0, _⟩ => show win1_2.index t (0 : Fin 1) * 256 + 1 * (y 0).val = (y 0).val; omega
theorem tile1_3 (c : Dev nD) (t : Fin cfg1.N) : (tile1 V c 3 t : S256x128.Idx → EReal) = V c main_arg4 := by
  obtain ⟨e0, e1⟩ := idx1_3 t
  funext y
  show V c main_arg4 (((cfg1.win 3).blk t).view.emb y) = V c main_arg4 y
  congr 1
  funext a; apply Fin.ext
  match a with
  | ⟨0, _⟩ => show win1_3.index t (0 : Fin 2) * 256 + 1 * (y 0).val = (y 0).val; omega
  | ⟨1, _⟩ => show win1_3.index t (1 : Fin 2) * 128 + 1 * (y 1).val = (y 1).val; omega
theorem tile1_4 (c : Dev nD) (t : Fin cfg1.N) : (tile1 V c 4 t : S128.Idx → EReal) = V c main_arg5 := by
  have e0 := idx1_4 t
  funext y
  show V c main_arg5 (((cfg1.win 4).blk t).view.emb y) = V c main_arg5 y
  congr 1
  funext a; apply Fin.ext
  match a with
  | ⟨0, _⟩ => show win1_4.index t (0 : Fin 1) * 128 + 1 * (y 0).val = (y 0).val; omega

end Cert.KernelIdeal.Val

end
-- ==== Proof.ValOut.lean ====
/-
  What the second launch leaves in its result array: at its one grid point the result window's block is the whole
  array and is written back, so the array ends at what the body stored: the perceptron of the five operand blocks.
-/
import proofs.«431016_j89206470738329_1_alg».proof.Proof.SegVals
import proofs.«431016_j89206470738329_1_alg».proof.Proof.ValSpec
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Seg

variable (V : (c : Dev nD) → (b : Ref sig .tc) → Buf (Elt Ideal) ((c : Thread nD τ).loc b))

/-- The result window's block starts, at the launch's one point, at offset zero on both axes of its array. -/
theorem off5 : (fun a => win1_5.index t1_0 a * main_v4.ty.shape.size a) = fun _ => 0 :=
  funext fun a => by fin_cases a <;> decide

/-- What the one point writes back is the whole-array block of whatever contents `G` the body left: the block is
    the array, so the moved part of the staging buffer is all of it and reading the block of `G` gives `G`. -/
theorem flushed5_eq (c : Dev nD) (G : S1024x128.Idx → EReal) (t : Fin cfg1.N) (h : (dat1 V c).after 5 t = G) :
    (dat1 V c).flushed 5 t = ((cfg1.win 5).blk t).view.read (Elt Ideal) G := by
  obtain rfl : t = t1_0 := fin_N1 t
  show (cfg1.win 5).cut (grid1.coords t1_0) ((dat1 V c).after 5 t1_0) = _
  rw [h]
  exact (Memref.read_access_unit_zero (Elt Ideal) main_v4 off5 (fun a => by rw [congrFun off5 a]; simp) G).symm

/-- On each axis that block starts at zero and has the array's full extent. -/
theorem blk5_axes : ∀ a : Fin 2, win1_5.index t1_0 a * win1_5.size a = 0
    ∧ win1_5.xsize (grid1.coords t1_0) a = S1024x128.size a := by decide

theorem out_eq (c : Dev nD) :
    ((dat1 V c).arrAt 5 cfg1.N : S1024x128.Idx → EReal)
      = k1_pay1 (F := Ideal) (tile1 V c 0 t1_0) (tile1 V c 1 t1_0) (tile1 V c 2 t1_0) (tile1 V c 3 t1_0) (tile1 V c 4 t1_0) := by
  refine (dat1 V c).arrAt_eq_of_cover 5 _
    (fun t _ => flushed5_eq V c _ t ((after1_5 V c t).trans (by rw [fin_N1 t]))) fun i => ⟨t1_0, flush1_5 t1_0, ?_⟩
  show i ∈ ((View.whole main_v4).slice (win1_5.rect t1_0)).set
  rw [View.set_slice_whole, Rect.mem_set_unit]
  intro a
  obtain ⟨e0, e1⟩ := blk5_axes a
  show win1_5.index t1_0 a * win1_5.size a ≤ (i a : Nat) ∧ (i a : Nat) < win1_5.index t1_0 a * win1_5.size a + win1_5.xsize (grid1.coords t1_0) a
  rw [e0, e1]
  exact ⟨Nat.zero_le _, by rw [Nat.zero_add]; exact (i a).isLt⟩

end Cert.KernelIdeal.Val

end
-- ==== Proof.ValPartial.lean ====
/-
  What the first launch leaves in its result array. The result window's block at grid point t is slab t / 245 of
  the 2 x 1024 x 128 array, and it is written back exactly at the last tile of each half (t = 244 and t = 489), from
  the running sums there. The two slabs cover the array, so entry (p, d, j) ends at the running sums after tile
  245 p + 244, re-laid, at (0, d, j).
-/
import proofs.«431016_j89206470738329_1_alg».proof.Proof.SegVals
import proofs.«431016_j89206470738329_1_alg».proof.Proof.ValSpec
import proofs.«431016_j89206470738329_1_alg».proof.Proof.ValData
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Seg

variable (V : (c : Dev nD) → (b : Ref sig .tc) → Buf (Elt Ideal) ((c : Thread nD τ).loc b))

namespace Partial

/-- The running sums depend on the tile's number only, not on how that number is written. -/
theorem sums_congr (c : Dev nD) {n m : ℕ} (hn : n < cfg0.N) (hm : m < cfg0.N) (e : n = m) :
    sums V c n hn = sums V c m hm := by subst e; rfl

/-- The result window's block index at grid point t is (t / 245, 0, 0): checked at each of the 490 points. -/
theorem idx2 : ∀ t : Fin cfg0.N, win0_2.index t (0 : Fin 3) = t.val / 245 ∧ win0_2.index t (1 : Fin 3) = 0 ∧ win0_2.index t (2 : Fin 3) = 0 :=
  (by decide +kernel : ∀ t : Fin grid0.N, win0_2.index t (0 : Fin 3) = t.val / 245 ∧ win0_2.index t (1 : Fin 3) = 0 ∧ win0_2.index t (2 : Fin 3) = 0)

/-- The last tile of half a, tile 245 a + 244, is a grid point. -/
theorem lastTile_lt (a : ℕ) (ha : a < 2) : a * 245 + 244 < cfg0.N := by
  rw [show cfg0.N = 490 from N_0]; omega

/-- The whole 2 x 1024 x 128 array the write-backs are blocks of: slab a holds the running sums after the last
    tile of half a, re-laid; entry (a, d, j) is their entry (0, d, j). -/
def G (c : Dev nD) : S2x1024x128.Idx → EReal := fun i =>
  (k0_pay3 (F := Ideal) (sums V c ((i 0).val * 245 + 244) (lastTile_lt _ (i 0).isLt)) : S1x1024x128.Idx → EReal) (ix3 (0 : Fin 1) (i 1) (i 2))

/-- That array at an index i, read through any tile number n equal to 245 (i 0) + 244 and any index z of the
    1 x 1024 x 128 block whose last two coordinates are i's (its first can only be 0). -/
theorem G_apply (c : Dev nD) (i : S2x1024x128.Idx) (n : ℕ) (hn : n < cfg0.N) (e : n = (i 0).val * 245 + 244)
    (z : S1x1024x128.Idx) (e1 : (z 1).val = (i 1).val) (e2 : (z 2).val = (i 2).val) :
    G V c i = (k0_pay3 (F := Ideal) (sums V c n hn) : S1x1024x128.Idx → EReal) z := by
  unfold G
  rw [sums_congr V c hn (lastTile_lt _ (i 0).isLt) e]
  have hz : z = ix3 (0 : Fin 1) (i 1) (i 2) := by
    funext a
    match a with
    | ⟨0, _⟩ =>
      apply Fin.ext
      have h0 : (z 0).val < 1 := (z 0).isLt
      show (z 0).val = 0
      omega
    | ⟨1, _⟩ => exact Fin.ext e1
    | ⟨2, _⟩ => exact Fin.ext e2
  subst hz
  rfl

/-- What a writing point t (t % 245 = 244) writes back is its block of that array. The block is slab t / 245:
    its entry y sits at (t / 245 + y 0, y 1, y 2) with y 0 = 0, and t = 245 (t / 245) + 244, so the slab's running
    sums are the ones after tile t. -/
theorem flushed2_eq (c : Dev nD) (t : Fin cfg0.N) (hf : (cfg0.win 2).flush t = true) :
    (dat0 V c).flushed 2 t = ((cfg0.win 2).blk t).view.read (Elt Ideal) (G V c) := by
  show (cfg0.win 2).cut (grid0.coords t) ((dat0 V c).after 2 t) = _
  rw [after0_2]
  have hlast : t.val % 245 = 244 := (flush0_2 t).mp hf
  obtain ⟨q0, q1, q2⟩ := idx2 t
  funext y
  have hy0 : (y 0).val < 1 := (y 0).isLt
  show (k0_pay3 (F := Ideal) (sums V c t.val t.isLt) : S1x1024x128.Idx → EReal) ((cfg0.win 2).xinj (grid0.coords t) y)
      = G V c (((cfg0.win 2).blk t).view.emb y)
  refine (G_apply V c _ t.val t.isLt ?_ _ ?_ ?_).symm
  · show t.val = (win0_2.index t (0 : Fin 3) * 1 + 1 * (y 0).val) * 245 + 244
    omega
  · show (y 1).val = win0_2.index t (1 : Fin 3) * 1024 + 1 * (y 1).val
    omega
  · show (y 2).val = win0_2.index t (2 : Fin 3) * 128 + 1 * (y 2).val
    omega

/-- An index of the array lies in point t's block iff, on each axis, its coordinate lies in the block's range:
    from block index times block size, for one block size. -/
theorem mem_blk2 (t : Fin cfg0.N) (i : S2x1024x128.Idx) :
    i ∈ ((cfg0.win 2).blk t).view.set ↔ ∀ a : Fin 3, win0_2.index t a * S1x1024x128.size a ≤ (i a).val ∧ (i a).val < win0_2.index t a * S1x1024x128.size a + S1x1024x128.size a := by
  show i ∈ ((View.whole main_v2).slice (win0_2.rect t)).set ↔ _
  rw [View.set_slice_whole, Rect.mem_set_unit]
  exact Iff.rfl

end Partial

open Partial in
/-- Entry (p, d, j) lies in the block of the writing point 245 p + 244 (slab p, since (245 p + 244) / 245 = p), so
    after all write-backs it holds that slab's value: the running sums after tile 245 p + 244, at (0, d, j). -/
theorem partial_apply (c : Dev nD) (p : Fin 2) (d : Fin 1024) (j : Fin 128) :
    part V c (ix3 p d j)
      = (k0_pay3 (F := Ideal) (sums V c (p.val * 245 + 244) (by have := p.isLt; rw [show cfg0.N = 490 from N_0]; omega)) : S1x1024x128.Idx → EReal) (ix3 (0 : Fin 1) d j) := by
  have hp : p.val < 2 := p.isLt
  have hlt : p.val * 245 + 244 < cfg0.N := lastTile_lt _ hp
  have hf : (cfg0.win 2).flush ⟨p.val * 245 + 244, hlt⟩ = true :=
    (flush0_2 _).mpr (by show (p.val * 245 + 244) % 245 = 244; omega)
  have hmem : ix3 p d j ∈ ((cfg0.win 2).blk ⟨p.val * 245 + 244, hlt⟩).view.set := by
    rw [mem_blk2]
    obtain ⟨q0, q1, q2⟩ := idx2 ⟨p.val * 245 + 244, hlt⟩
    have q0' : win0_2.index ⟨p.val * 245 + 244, hlt⟩ (0 : Fin 3) = (p.val * 245 + 244) / 245 := q0
    have hd : d.val < 1024 := d.isLt
    have hj : j.val < 128 := j.isLt
    intro a
    match a with
    | ⟨0, _⟩ =>
      show win0_2.index ⟨p.val * 245 + 244, hlt⟩ (0 : Fin 3) * 1 ≤ p.val ∧ p.val < win0_2.index ⟨p.val * 245 + 244, hlt⟩ (0 : Fin 3) * 1 + 1
      omega
    | ⟨1, _⟩ =>
      show win0_2.index ⟨p.val * 245 + 244, hlt⟩ (1 : Fin 3) * 1024 ≤ d.val ∧ d.val < win0_2.index ⟨p.val * 245 + 244, hlt⟩ (1 : Fin 3) * 1024 + 1024
      omega
    | ⟨2, _⟩ =>
      show win0_2.index ⟨p.val * 245 + 244, hlt⟩ (2 : Fin 3) * 128 ≤ j.val ∧ j.val < win0_2.index ⟨p.val * 245 + 244, hlt⟩ (2 : Fin 3) * 128 + 128
      omega
  unfold part
  rw [(dat0 V c).arrAt_apply_of_mem 2 (G V c) (fun t ht => flushed2_eq V c t ht) cfg0.N ⟨p.val * 245 + 244, hlt⟩ (ix3 p d j) hlt hf hmem]
  exact G_apply V c (ix3 p d j) _ _ rfl _ rfl rfl

end Cert.KernelIdeal.Val

end
-- ==== Proof.ValSums.lean ====
/-
  The running sums after a half's last tile, in closed form at the ideal instance: by induction along the half,
  each tile adding 0 + its contribution to what the tile before left, the first tile starting from the zero array.
-/
import proofs.«431016_j89206470738329_1_alg».proof.Proof.SegVals
import proofs.«431016_j89206470738329_1_alg».proof.Proof.ValSpec
import proofs.«431016_j89206470738329_1_alg».proof.Proof.ValStep
import proofs.«431016_j89206470738329_1_alg».proof.Proof.ValTiles

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Seg

variable (V : (c : Dev nD) → (b : Ref sig .tc) → Buf (Elt Ideal) ((c : Thread nD τ).loc b))

/-- The running sums depend on the tile's number only, not on how it is written. -/
theorem sums_congr (c : Dev nD) {m n : ℕ} (h : m = n) (hm : m < cfg0.N) (hn : n < cfg0.N) :
    sums V c m hm = sums V c n hn := by
  subst h; rfl

/-- Tile `i` of half `p` as it enters district `d`'s feature `j` (zero for `i` beyond the half's 245 tiles). -/
def contrib (c : Dev nD) (p : Fin 2) (d : Fin 1024) (j : Fin 128) (i : ℕ) : EReal :=
  if h : i < 245 then
    0 + tileSum (tileX (V c main_v0) (tileOf p ⟨i, h⟩)) (tileZ (V c main_v1) (tileOf p ⟨i, h⟩)) d j
  else 0

/-- After tile `k` of half `p` the running sums are the contributions of tiles `0 .. k` of that half. -/
theorem sums_upto (c : Dev nD) (p : Fin 2) (d : Fin 1024) (j : Fin 128) :
    ∀ (k : ℕ) (hk : k < 245) (hN : p.val * 245 + k < cfg0.N),
      (sums V c (p.val * 245 + k) hN : S1024x128.Idx → EReal) (ix2 d j)
        = ∑ i ∈ Finset.range (k + 1), contrib V c p d j i := by
  intro k
  induction k with
  | zero =>
    intro hk hN
    have h0 : (⟨p.val * 245 + 0, hN⟩ : Fin cfg0.N).val % 245 = 0 := by
      show (p.val * 245 + 0) % 245 = 0
      omega
    rw [show sums V c (p.val * 245 + 0) hN = _ from sums_first V c ⟨p.val * 245 + 0, hN⟩ h0]
    rw [step_apply, zero_apply, rows_eq, ids_eq]
    rw [Finset.sum_range_succ, Finset.range_zero, Finset.sum_empty]
    unfold contrib
    rw [dif_pos hk]
    rfl
  | succ k ih =>
    intro hk hN
    have h1 : ¬ (⟨p.val * 245 + (k + 1), hN⟩ : Fin cfg0.N).val % 245 = 0 := by
      show ¬ (p.val * 245 + (k + 1)) % 245 = 0
      omega
    have hN' : p.val * 245 + k < cfg0.N := by omega
    rw [show sums V c (p.val * 245 + (k + 1)) hN = _ from sums_next V c ⟨p.val * 245 + (k + 1), hN⟩ h1]
    rw [step_apply, rows_eq, ids_eq]
    rw [sums_congr V c (show p.val * 245 + (k + 1) - 1 = p.val * 245 + k by omega) _ hN']
    rw [ih (by omega) hN', Finset.sum_range_succ (n := k + 1)]
    congr 1
    unfold contrib
    rw [dif_pos hk]
    rfl

theorem sums_half (c : Dev nD) (p : Fin 2) (d : Fin 1024) (j : Fin 128) :
    (sums V c (p.val * 245 + 244) (by have := p.isLt; rw [show cfg0.N = 490 from N_0]; omega) : S1024x128.Idx → EReal) (ix2 d j)
      = halfSum (V c main_v0) (V c main_v1) p d j := by
  rw [sums_upto V c p d j 244 (by omega)]
  rw [show (244 + 1 : ℕ) = 245 from rfl, Finset.sum_range (fun i => contrib V c p d j i)]
  unfold halfSum
  apply Finset.sum_congr rfl
  intro k _
  unfold contrib
  rw [dif_pos k.isLt]

end Cert.KernelIdeal.Val

end
-- ==== Proof.ValHost.lean ====
/-
  What the host stretches leave, at the ideal instance. Before the first launch: the feature rows padded with
  1760 rows of the converted integer 0, and the ids padded with 1760 entries 1024. Between the launches: the two
  halves' partial sums added into a zero-initialised 1024 x 128 array. The weight and bias arguments reach the
  second launch as launched.
-/
import proofs.«431016_j89206470738329_1_alg».proof.Proof.SegRun
import proofs.«431016_j89206470738329_1_alg».proof.Proof.ValSpec
import proofs.«431016_j89206470738329_1_alg».proof.Proof.ValData
import Idealize.ShloMosaic.Lib.StableHlo.Run
import Idealize.ShloMosaic.Lib.KernelVsHost
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Seg

variable (m : (ℓ : Loc nD τ sig) → Buf (Elt Ideal) ℓ)

/-- The padded feature array as the first launch meets it: the pad of the launched rows by the converted integer 0. -/
theorem rows_term (c : Dev nD) :
    (Vin0 m c main_v0 : S501760x128.Idx → EReal)
      = pad S501760x128 ![0, 0] ![1760, 0] ![0, 0] (m ((c.tc : Thread nD τ).loc main_arg0) : S500000x128.Idx → EReal)
          (sitofp (F := Ideal) .f32 (constantI S_ 32 0#32) : FVec Ideal S_ .f32) pads_S500000x128_S501760x128_017600_000 h_S_ := by
  have h : Vin0 m c main_v0 = Gen.V2 m c main_v0 :=
    (Gen.V4_of m c main_v0 (by decide)).trans (Gen.V3_of m c main_v0 (by decide))
  rw [h]
  show StableHlo.after hostOps0_1 (Gen.V1 m c) (Proc.devRef .tc main_v0) = _
  dsimp only [Gen.V1, Gen.V0, hostOps0, hostOps0_1]
  after_results
  rfl

/-- The padded id array as the first launch meets it: the pad of the launched ids by the word 1024. -/
theorem ids_term (c : Dev nD) :
    (Vin0 m c main_v1 : S501760.Idx → BitVec 32)
      = pad S501760 ![0] ![1760] ![0] (m ((c.tc : Thread nD τ).loc main_arg1) : S500000.Idx → BitVec 32)
          (constantI S_ 32 1024#32 : S_.Idx → BitVec 32) pads_S500000_S501760_017600 h_S_ := by
  show StableHlo.after hostOps0_3 (Gen.V3 m c) (Proc.devRef .tc main_v1) = _
  dsimp only [Gen.V3, Gen.V2, Gen.V1, Gen.V0, hostOps0, hostOps0_1, hostOps0_2, hostOps0_3]
  after_results
  rfl

theorem entry_rows (c : Dev nD) :
    (Vin0 m c main_v0 : S501760x128.Idx → EReal) = padX (m ((c.tc : Thread nD τ).loc main_arg0)) := by
  rw [rows_term]
  funext i
  unfold padX
  by_cases hi : (i 0).val < 500000
  · rw [dif_pos hi]
    exact pad_apply_of_inside _ _ _ _ _ _ _ i (ix2 ⟨(i 0).val, hi⟩ (i 1)) (fun a => by
      match a with
      | ⟨0, _⟩ => show (i 0).val = 0 + (i 0).val * (0 + 1); omega
      | ⟨1, _⟩ => show (i 1).val = 0 + (i 1).val * (0 + 1); omega)
  · rw [dif_neg hi, pad_apply_of_not_inside _ _ _ _ _ _ _ i (0 : Fin 2) (by
      show ¬(0 ≤ (i 0).val ∧ ((i 0).val - 0) % (0 + 1) = 0 ∧ ((i 0).val - 0) / (0 + 1) < 500000)
      omega)]
    exact sitofp_zero (φ := .f32)

theorem entry_ids (c : Dev nD) :
    (Vin0 m c main_v1 : S501760.Idx → BitVec 32) = padZ (m ((c.tc : Thread nD τ).loc main_arg1)) := by
  rw [ids_term]
  funext i
  unfold padZ
  by_cases hi : (i 0).val < 500000
  · rw [dif_pos hi]
    exact pad_apply_of_inside _ _ _ _ _ _ _ i (ix1 ⟨(i 0).val, hi⟩) (fun a => by
      match a with
      | ⟨0, _⟩ => show (i 0).val = 0 + (i 0).val * (0 + 1); omega)
  · rw [dif_neg hi, pad_apply_of_not_inside _ _ _ _ _ _ _ i (0 : Fin 1) (by
      show ¬(0 ≤ (i 0).val ∧ ((i 0).val - 0) % (0 + 1) = 0 ∧ ((i 0).val - 0) / (0 + 1) < 500000)
      omega)]
    rfl

/-- The stretch between the launches leaves in its result array the sum over axis 0 of what the first launch's
    result array holds, from the constant zero. -/
theorem head_term (W : Valuation τ sig (Elt Ideal)) :
    (StableHlo.after hostOps1 W (Proc.devRef .tc main_v3) : S1024x128.Idx → EReal)
      = Host.reduceAdd (F := Ideal) (φ := .f32) (W (Proc.devRef .tc main_v2) : FVec Ideal S2x1024x128 .f32)
          (constant (F := Ideal) S_ .f32 0x00000000#32 : FVec Ideal S_ .f32) reducesTo_S2x1024x128_S1024x128_d0 h_S_ := by
  dsimp only [hostOps1]
  after_results

theorem head_entry (c : Dev nD) (d : Fin 1024) (j : Fin 128) :
    (Vin1 m c main_v3 : S1024x128.Idx → EReal) (ix2 d j)
      = 0 + ∑ p : Fin 2, part (Vin0 m) c (ix3 p d j) := by
  have hred : S2x1024x128.Reduces [0] S1024x128 := by decide
  have hlift : ∀ k : Fin 2, hred.lift (ix2 d j) k = ix3 k d j := fun k => funext fun a => by
    match a with
    | ⟨0, _⟩ => exact Fin.ext rfl
    | ⟨1, _⟩ => exact Fin.ext rfl
    | ⟨2, _⟩ => exact Fin.ext rfl
  refine (congrFun (head_term (Gen.V5 m (outs m) c)) (ix2 d j)).trans ?_
  rw [out0_eq m c]
  show Ideal.hostReduceAdd reducesTo_S2x1024x128_S1024x128_d0 (part (Vin0 m) c)
    (Ideal.ofBits .f32 0x00000000#32) (ix2 d j) = _
  rw [Ideal.hostReduceAdd_single reducesTo_S2x1024x128_S1024x128_d0 hred, Ideal.ofBits_zero_f32]
  exact congrArg (0 + ·) (Finset.sum_congr rfl fun k _ => congrArg _ (hlift k))

theorem entry_w1 (c : Dev nD) : Vin1 m c main_arg2 = m ((c.tc : Thread nD τ).loc main_arg2) :=
  (Gen.V6_of m (outs m) c main_arg2 (by decide)).trans <| (Gen.V5_of m (outs m) c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem entry_b1 (c : Dev nD) : Vin1 m c main_arg3 = m ((c.tc : Thread nD τ).loc main_arg3) :=
  (Gen.V6_of m (outs m) c main_arg3 (by decide)).trans <| (Gen.V5_of m (outs m) c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem entry_w2 (c : Dev nD) : Vin1 m c main_arg4 = m ((c.tc : Thread nD τ).loc main_arg4) :=
  (Gen.V6_of m (outs m) c main_arg4 (by decide)).trans <| (Gen.V5_of m (outs m) c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem entry_b2 (c : Dev nD) : Vin1 m c main_arg5 = m ((c.tc : Thread nD τ).loc main_arg5) :=
  (Gen.V6_of m (outs m) c main_arg5 (by decide)).trans <| (Gen.V5_of m (outs m) c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl

end Cert.KernelIdeal.Val

end
-- ==== Proof.ValBridge.lean ====
/-
  The kernel's summed features are the reference's segment sum, at the ideal instance.

  The reference scatters row n of the features into row z n of a zero array, adding, and drops a row whose id
  (read signed) is outside 0..1023: entry (d, j) is 0 + the sum of x n j over the rows n with id d. The kernel pads
  to 501760 rows (zero rows, id 1024), cuts them into 2 x 245 tiles of 1024 rows and sums, per tile, the rows whose
  id WORD is d's: for d below 1024 the word test and the signed test pick the same rows, a padding row's id 1024
  is never d, and every row is in exactly one tile; sums of extended reals re-associate and commute freely, and
  0 + a = a.

  The steps, in the order of the file:
    * where an update lands: update (n, j') starts at (the id of row n read signed, 0) and has window coordinate
      (0, j'), so it lands at (d, j) exactly when j' = j and the id word of row n is the word of d;
    * the reference's entry (d, j) is therefore the sum over the 500000 rows of "x n j if row n has id d, else 0";
    * a double sum over a blocks of b consecutive rows is the single sum over the a * b rows (used twice: halves of
      tiles, tiles of rows), so the kernel's entry is one sum over the 501760 padded rows;
    * the padded rows past 500000 contribute 0, and on the others the padded arrays are the given ones.
-/
import proofs.«431016_j89206470738329_1_alg».proof.Proof.ValSpec
import proofs.«431016_j89206470738329_1_alg».proof.Proof.Gen.ReferenceIdeal
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

noncomputable section

namespace Cert.KernelIdeal.Val

open Idealize.ShloMosaic Idealize.ShloMosaic.TcCoe Idealize.ShloMosaic.ValueIdx Idealize.SL.Sem
open Cert.KernelIdeal Cert.KernelIdeal.Gen

namespace Bridge

/-- The reference's scatter record: window axis 1 of the updates, operand axis 0 inserted and indexed. -/
abbrev SD := Cert.ReferenceIdeal.scatter_S1024x128_S500000x1_S500000x128_1_0_0_1

/-- The ids as the 500000 x 1 column of scatter indices. -/
abbrev zcol (z : S500000.Idx → BitVec 32) : IVec Cert.ReferenceIdeal.S500000x1 32 :=
  broadcastInDim Cert.ReferenceIdeal.S500000x1 ![0] Cert.ReferenceIdeal.Facts₀.bcast_S500000_S500000x1_0 z

/-! ### Where update (n, j') lands -/

/-- On the operand's row axis the window starts at the id of row n, read signed. -/
theorem start0 (z : S500000.Idx → BitVec 32) (n : Fin 500000) (j' : Fin 128) :
    SD.start (ix2 n j') (zcol z) 0 = (z (ix1 n)).toInt := by
  unfold ScatterDims.start
  rw [dif_pos (show (0 : Fin 2) ∈ SD.scatterDimsToOperandDims from List.mem_singleton.mpr rfl)]
  congr 1
  refine broadcastInDim_apply _ _ z _ (ix1 n) ?_
  intro a
  obtain rfl : a = 0 := Subsingleton.elim _ _
  rfl

/-- The feature axis is not indexed: the window starts at 0 there. -/
theorem start1 (z : S500000.Idx → BitVec 32) (n : Fin 500000) (j' : Fin 128) :
    SD.start (ix2 n j') (zcol z) 1 = 0 := by
  unfold ScatterDims.start
  rw [dif_neg (show ¬ (1 : Fin 2) ∈ SD.scatterDimsToOperandDims from by decide)]

/-- The row axis is an inserted one: window coordinate 0. -/
theorem window0 (n : Fin 500000) (j' : Fin 128) : SD.window (ix2 n j') 0 = 0 := by
  unfold ScatterDims.window
  rw [dif_neg (show ¬ (0 : Fin 2) ∈ SD.sKept from by decide)]

/-- The feature axis carries the update's own feature coordinate. -/
theorem window1 (n : Fin 500000) (j' : Fin 128) : SD.window (ix2 n j') 1 = j'.val := by
  unfold ScatterDims.window
  rw [dif_pos (show (1 : Fin 2) ∈ SD.sKept from by decide)]
  rfl

/-- A 32-bit word reads, signed, as the natural number m < 1024 exactly when it is the word of m: a word of
    m has its top bit clear, and a word with a non-negative signed reading is its unsigned reading. -/
theorem word_of_toInt (w : BitVec 32) (m : Nat) (hm : m < 1024) : w.toInt = (m : Int) ↔ w = BitVec.ofNat 32 m := by
  constructor
  · intro h
    apply BitVec.eq_of_toNat_eq
    rw [BitVec.toNat_ofNat]
    have hlt := w.isLt
    rw [BitVec.toInt_eq_toNat_cond] at h
    split at h <;> omega
  · rintro rfl
    rw [BitVec.toInt_eq_toNat_cond, BitVec.toNat_ofNat]
    split <;> omega

/-- Update (n, j') lands at (d, j) exactly when it is in column j and the id word of row n is the word of d. -/
theorem lands_iff (z : S500000.Idx → BitVec 32) (n : Fin 500000) (j' : Fin 128) (d : Fin 1024) (j : Fin 128) :
    SD.resultIdx? (ix2 n j') (zcol z) = some (ix2 d j) ↔ j' = j ∧ z (ix1 n) = BitVec.ofNat 32 d.val := by
  unfold ScatterDims.resultIdx?
  constructor
  · intro h
    split at h
    · rename_i hin
      have h' := Option.some.inj h
      have h0 := congrArg (fun f => (f 0).val) h'
      have h1 := congrArg (fun f => (f 1).val) h'
      simp only [start0, start1, window0, window1] at h0 h1
      have hin0 := hin 0
      rw [start0, window0] at hin0
      refine ⟨Fin.ext ?_, (word_of_toInt _ d.val d.isLt).1 ?_⟩
      · change _ = j.val at h1
        omega
      · change _ = d.val at h0
        omega
    · exact absurd h (by simp)
  · rintro ⟨rfl, hz⟩
    have hin : ∀ a, 0 ≤ SD.start (ix2 n j') (zcol z) a + SD.window (ix2 n j') a ∧
        SD.start (ix2 n j') (zcol z) a + SD.window (ix2 n j') a < Cert.ReferenceIdeal.S1024x128.size a := by
      intro a
      match a with
      | ⟨0, _⟩ =>
        show 0 ≤ SD.start (ix2 n j') (zcol z) 0 + SD.window (ix2 n j') 0 ∧
          SD.start (ix2 n j') (zcol z) 0 + SD.window (ix2 n j') 0 < 1024
        rw [start0, window0, hz, (word_of_toInt _ d.val d.isLt).2 rfl]
        have := d.isLt
        omega
      | ⟨1, _⟩ =>
        show 0 ≤ SD.start (ix2 n j') (zcol z) 1 + SD.window (ix2 n j') 1 ∧
          SD.start (ix2 n j') (zcol z) 1 + SD.window (ix2 n j') 1 < 128
        rw [start1, window1]
        have := j'.isLt
        omega
    rw [dif_pos hin]
    congr 1
    funext a
    match a with
    | ⟨0, _⟩ =>
      refine Fin.ext ?_
      show (SD.start (ix2 n j') (zcol z) 0 + SD.window (ix2 n j') 0).toNat = d.val
      rw [start0, window0, hz, (word_of_toInt _ d.val d.isLt).2 rfl]
      simp
    | ⟨1, _⟩ =>
      refine Fin.ext ?_
      show (SD.start (ix2 n j') (zcol z) 1 + SD.window (ix2 n j') 1).toNat = j'.val
      rw [start1, window1]
      simp

/-! ### The reference's entry as a sum over the rows -/

/-- Entry (d, j) of the scatter into the zero array: the rows with id d, column j, summed. -/
theorem ref_eq (x : S500000x128.Idx → EReal) (z : S500000.Idx → BitVec 32) (d : Fin 1024) (j : Fin 128) :
    ((Host.scatterAdd (F := Ideal) SD
        (broadcastInDim Cert.ReferenceIdeal.S1024x128 ![] Cert.ReferenceIdeal.Facts₀.bcast_S_S1024x128 (constant Cert.ReferenceIdeal.S_ .f32 0x00000000#32))
        (zcol z) x) : S1024x128.Idx → EReal) (ix2 d j)
      = ∑ n : Fin 500000, if z (ix1 n) = BitVec.ofNat 32 d.val then x (ix2 n j) else 0 := by
  show Ideal.ofBits .f32 0x00000000#32 + ∑ u ∈ Finset.univ.filter (fun u => SD.resultIdx? u (zcol z) = some (ix2 d j)), x u = _
  rw [Ideal.ofBits_zero_f32, zero_add, Finset.sum_filter, sum_idx2]
  refine Finset.sum_congr rfl fun n _ => ?_
  simp only [lands_iff]
  by_cases hz : z (ix1 n) = BitVec.ofNat 32 d.val
  · simp [hz]
  · simp [hz]

/-! ### Blocks of rows, and rows past the end -/

/-- Row n of block t, of a blocks of b rows, is below a * b. -/
theorem blk_lt {a b N : Nat} (h : a * b = N) (t : Fin a) (n : Fin b) : t.val * b + n.val < N := by
  have h1 : (t.val + 1) * b ≤ a * b := Nat.mul_le_mul_right b t.isLt
  rw [Nat.add_mul, Nat.one_mul] at h1
  have := n.isLt
  omega

/-- Summing block by block, and within a block row by row, is summing over all rows: (t, n) ↦ t * b + n is a
    bijection from a blocks of b rows onto the a * b rows. -/
theorem sum_blocks {M : Type*} [AddCommMonoid M] (a b N : Nat) (h : a * b = N) (G : Fin N → M) :
    ∑ t : Fin a, ∑ n : Fin b, G ⟨t.val * b + n.val, blk_lt h t n⟩ = ∑ r : Fin N, G r := by
  subst h
  rw [← Equiv.sum_comp finProdFinEquiv G, Fintype.sum_prod_type]
  refine Finset.sum_congr rfl fun t _ => Finset.sum_congr rfl fun n _ => ?_
  congr 1
  refine Fin.ext ?_
  show t.val * b + n.val = n.val + b * t.val
  rw [Nat.mul_comm, Nat.add_comm]

/-- A sum over N rows whose terms vanish from row m on is the sum over the first m rows. -/
theorem sum_pad {M : Type*} [AddCommMonoid M] (m N : Nat) (h : m ≤ N) (G : Fin N → M)
    (hz : ∀ r : Fin N, m ≤ r.val → G r = 0) :
    ∑ r : Fin N, G r = ∑ n : Fin m, G ⟨n.val, lt_of_lt_of_le n.isLt h⟩ := by
  obtain ⟨k, rfl⟩ := Nat.exists_eq_add_of_le h
  rw [Fin.sum_trunc G (fun i => hz _ (by simp))]
  rfl

/-- The kernel's entry (d, j) as one sum over the padded rows: the two zero accumulators drop out, and the halves
    of tiles of rows are all the rows. -/
theorem head_rows (x : S500000x128.Idx → EReal) (z : S500000.Idx → BitVec 32) (d : Fin 1024) (j : Fin 128) :
    headK (padX x) (padZ z) d j = ∑ r : Fin 501760, hot (padZ z (ix1 r)) d * padX x (ix2 r j) := by
  unfold headK halfSum tileSum
  simp only [zero_add]
  have e1 := sum_blocks 2 245 490 (by norm_num)
    (fun t : Fin 490 => ∑ n : Fin 1024, hot (padZ z (ix1 (rowOf t n))) d * padX x (ix2 (rowOf t n) j))
  have e2 := sum_blocks 490 1024 501760 (by norm_num) (fun r : Fin 501760 => hot (padZ z (ix1 r)) d * padX x (ix2 r j))
  exact e1.trans e2

/-- The padding id 1024 is no district's word: a district is below 1024. -/
theorem hot_pad (d : Fin 1024) : hot 1024#32 d = 0 := by
  unfold hot
  rw [if_neg]
  intro h
  have := congrArg BitVec.toNat h
  rw [BitVec.toNat_ofNat, BitVec.toNat_ofNat] at this
  have := d.isLt
  omega

end Bridge

open Bridge in
theorem head_eq (x : S500000x128.Idx → EReal) (z : S500000.Idx → BitVec 32) (d : Fin 1024) (j : Fin 128) :
    headK (padX x) (padZ z) d j
      = ((Host.scatterAdd (F := Ideal) Cert.ReferenceIdeal.scatter_S1024x128_S500000x1_S500000x128_1_0_0_1
          (broadcastInDim Cert.ReferenceIdeal.S1024x128 ![] Cert.ReferenceIdeal.Facts₀.bcast_S_S1024x128 (constant Cert.ReferenceIdeal.S_ .f32 0x00000000#32))
          (broadcastInDim Cert.ReferenceIdeal.S500000x1 ![0] Cert.ReferenceIdeal.Facts₀.bcast_S500000_S500000x1_0 z) x) : S1024x128.Idx → EReal) (ix2 d j) := by
  rw [head_rows]
  refine Eq.trans ?_ (ref_eq x z d j).symm
  rw [sum_pad 500000 501760 (by norm_num)]
  · -- a row below 500000: the padded arrays are the given ones, and the 0/1 factor selects the row
    refine Finset.sum_congr rfl fun n _ => ?_
    have hZ : padZ z (ix1 (⟨n.val, lt_of_lt_of_le n.isLt (by norm_num)⟩ : Fin 501760)) = z (ix1 n) := by
      unfold padZ
      exact dif_pos n.isLt
    have hX : padX x (ix2 (⟨n.val, lt_of_lt_of_le n.isLt (by norm_num)⟩ : Fin 501760) j) = x (ix2 n j) := by
      unfold padX
      exact dif_pos n.isLt
    rw [hZ, hX]
    unfold hot
    split
    · exact one_mul _
    · exact zero_mul _
  · -- a padding row: its id is 1024, so its factor is 0
    intro r hr
    have hZ : padZ z (ix1 r) = 1024#32 := by
      unfold padZ
      exact dif_neg (by show ¬ r.val < 500000; omega)
    rw [hZ, hot_pad, zero_mul]

end Cert.KernelIdeal.Val

end
-- ==== Proof.ValMlp.lean ====
/-
  The second launch's payload is the reference's two-layer perceptron, at the ideal instance.

  Both clamp the summed features at zero, multiply by the first weight matrix, add the first bias along the rows,
  clamp at zero, multiply by the second weight matrix and add the second bias. The kernel's narrowing to bf16 is
  the identity on extended reals; its matrix products into a zero accumulator are the host's products; its bias, a
  vector re-laid as one row and repeated down the rows, is the host's two broadcasts; its zero splat is the
  host's broadcast zero.
-/
import proofs.«431016_j89206470738329_1_alg».proof.Proof.Gen.KernelIdeal.Skeleton
import proofs.«431016_j89206470738329_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen

/-- Both operands narrowed, the accumulator the zero splat: at the extended reals narrowing changes nothing and
    `0 + x = x`, so each entry is the host product's sum over the contraction index. -/
theorem matmul_narrowed_zero_eq_dotGeneral {sl sr so : Shape} (d : DotDims sl sr so) (prec : Option ContractPrecision)
    (x : FVec Ideal sl .f32) (y : FVec Ideal sr .f32) (hb : FTy.bits .bf16 < FTy.bits .f32) :
    matmul d prec (truncf .bf16 x hb) (truncf .bf16 y hb) (constant so .f32 0x00000000#32)
      = Host.dotGeneral d prec x y := by
  funext j
  show FloatOps.matmul d prec (truncf .bf16 x hb) (truncf .bf16 y hb) (constant so .f32 0x00000000#32) j
      = FloatOps.dotGeneral d prec _ x y j
  rw [Ideal.matmul_constant_zero_apply, Ideal.dotGeneral_apply]
  rfl

/-- A vector laid along every row the host's way, in two steps (first as a one-row matrix, then that row repeated
    down the rows), is the vector broadcast along axis 1: both read entry `t` of the vector at `(r, t)`. -/
theorem broadcastInDim_oneRow_of_vector {α : Type} {m n : Nat} (x : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (hd : (⟨1, ![n]⟩ : Shape).BroadcastsInDim ⟨2, ![m, n]⟩ ![1]) :
    broadcastInDim ⟨2, ![m, n]⟩ ![0, 1] hd2 (broadcastInDim ⟨2, ![1, n]⟩ ![1] hd1 x)
      = broadcastInDim ⟨2, ![m, n]⟩ ![1] hd x := by
  funext i
  obtain ⟨r, t, rfl⟩ : ∃ (r : Fin m) (t : Fin n), i = ix2 r t := ⟨i 0, i 1, eq_ix2 i⟩
  have along : ∀ {k : Nat} (hk : (⟨1, ![n]⟩ : Shape).BroadcastsInDim ⟨2, ![k, n]⟩ ![1]) (r' : Fin k),
      broadcastInDim ⟨2, ![k, n]⟩ ![1] hk x (ix2 r' t) = x (ix1 t) := by
    intro k hk r'
    refine broadcastInDim_apply ![1] hk x (ix2 r' t) (ix1 t) ?_
    intro a
    have ha : a = 0 := Subsingleton.elim _ _
    subst ha
    show t.val = if n = 1 then 0 else t.val
    split_ifs with hn
    · have := t.isLt; omega
    · rfl
  rw [broadcastInDim_oneRow_apply hd2 _ r t, along hd1 0, along hd r]

/-- The kernel's bias (the vector re-laid as one row, the row repeated down the rows) is the host's two broadcasts. -/
theorem bias_rows_eq {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hd2 (broadcastInDim ⟨2, ![1, n]⟩ ![1] hd1 x) := by
  have hd : (⟨1, ![n]⟩ : Shape).BroadcastsInDim ⟨2, ![m, n]⟩ ![1] :=
    ⟨fun a b _ => Subsingleton.elim a b, fun a => Or.inr (by
      have ha : a = 0 := Subsingleton.elim _ _
      subst ha; rfl)⟩
  rw [broadcastTo_row_eq_broadcastInDim x h1 hb hd, broadcastInDim_oneRow_of_vector x hd1 hd2 hd]

theorem mlp_eq (h : FVec Ideal S1024x128 .f32) (w1 : FVec Ideal S128x256 .f32) (b1 : FVec Ideal S256 .f32) (w2 : FVec Ideal S256x128 .f32) (b2 : FVec Ideal S128 .f32) :
    (k1_pay1 (F := Ideal) h w1 b1 w2 b2 : FVec Ideal S1024x128 .f32)
      = addf (Host.dotGeneral Cert.ReferenceIdeal.dot_S1024x256_S256x128_S1024x128_1_0_0_1_n_n none (maximumf (addf (Host.dotGeneral Cert.ReferenceIdeal.dot_S1024x128_S128x256_S1024x256_1_0_0_1_n_n none (maximumf h (broadcastInDim Cert.ReferenceIdeal.S1024x128 ![] Cert.ReferenceIdeal.Facts₀.bcast_S_S1024x128 (constant Cert.ReferenceIdeal.S_ .f32 0x00000000#32))) w1) (broadcastInDim Cert.ReferenceIdeal.S1024x256 ![0, 1] Cert.ReferenceIdeal.Facts₀.bcast_S1x256_S1024x256_0_1 (broadcastInDim Cert.ReferenceIdeal.S1x256 ![1] Cert.ReferenceIdeal.Facts₀.bcast_S256_S1x256_1 b1))) (broadcastInDim Cert.ReferenceIdeal.S1024x256 ![] Cert.ReferenceIdeal.Facts₀.bcast_S_S1024x256 (constant Cert.ReferenceIdeal.S_ .f32 0x00000000#32))) w2) (broadcastInDim Cert.ReferenceIdeal.S1024x128 ![0, 1] Cert.ReferenceIdeal.Facts₀.bcast_S1x128_S1024x128_0_1 (broadcastInDim Cert.ReferenceIdeal.S1x128 ![1] Cert.ReferenceIdeal.Facts₀.bcast_S128_S1x128_1 b2)) := by
  -- Open the payload's chain of intermediate values into one term.
  unfold k1_pay1
  dsimp only
  -- Left side, towards the host's spelling: the first cast keeps its shape; each product of narrowed operands into
  -- a zero accumulator is the host's product; each bias is the host's pair of broadcasts. Right side: each
  -- broadcast scalar zero is the splat of zero. What remains differs only in which copy of the same shape and
  -- dimension-number records is named.
  rw [shapeCast_self,
    matmul_narrowed_zero_eq_dotGeneral, matmul_narrowed_zero_eq_dotGeneral,
    bias_rows_eq b1 _ _ Cert.ReferenceIdeal.Facts₀.bcast_S256_S1x256_1 Cert.ReferenceIdeal.Facts₀.bcast_S1x256_S1024x256_0_1,
    bias_rows_eq b2 _ _ Cert.ReferenceIdeal.Facts₀.bcast_S128_S1x128_1 Cert.ReferenceIdeal.Facts₀.bcast_S1x128_S1024x128_0_1,
    broadcastInDim_constant, broadcastInDim_constant]
  rfl

end Cert.KernelIdeal.Val

end
-- ==== Proof.KernelValue.lean ====
/-
  The idealized kernel's result is the reference's term of the argument arrays.

  The second launch leaves in the result array the perceptron of the summed features h and the weight and bias
  arguments. h is what the host stretch between the launches computes: 0 + the two slabs of the first launch's
  result, slab p being the running sums after the last tile of half p, that is the sum over the half's 245 tiles of
  the tile's rows with id d, taken over the padded arrays; and that is the reference's accumulating scatter of the
  rows into a zero array. The perceptron is the reference's, operation by operation.
-/
import proofs.«431016_j89206470738329_1_alg».proof.Proof.SegRun
import proofs.«431016_j89206470738329_1_alg».proof.Proof.ValSpec
import proofs.«431016_j89206470738329_1_alg».proof.Proof.ValData
import proofs.«431016_j89206470738329_1_alg».proof.Proof.ValStep
import proofs.«431016_j89206470738329_1_alg».proof.Proof.ValTiles
import proofs.«431016_j89206470738329_1_alg».proof.Proof.ValOut
import proofs.«431016_j89206470738329_1_alg».proof.Proof.ValPartial
import proofs.«431016_j89206470738329_1_alg».proof.Proof.ValSums
import proofs.«431016_j89206470738329_1_alg».proof.Proof.ValHost
import proofs.«431016_j89206470738329_1_alg».proof.Proof.ValBridge
import proofs.«431016_j89206470738329_1_alg».proof.Proof.ValMlp

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Seg

variable (m : (ℓ : Loc nD τ sig) → Buf (Elt Ideal) ℓ)

/-- The argument arrays, at their literal types. -/
abbrev argX (c : Dev nD) : FVec Ideal S500000x128 .f32 := m ((c.tc : Thread nD τ).loc main_arg0)
abbrev argZ (c : Dev nD) : IVec S500000 32 := m ((c.tc : Thread nD τ).loc main_arg1)
abbrev argW1 (c : Dev nD) : FVec Ideal S128x256 .f32 := m ((c.tc : Thread nD τ).loc main_arg2)
abbrev argB1 (c : Dev nD) : FVec Ideal S256 .f32 := m ((c.tc : Thread nD τ).loc main_arg3)
abbrev argW2 (c : Dev nD) : FVec Ideal S256x128 .f32 := m ((c.tc : Thread nD τ).loc main_arg4)
abbrev argB2 (c : Dev nD) : FVec Ideal S128 .f32 := m ((c.tc : Thread nD τ).loc main_arg5)

/-- The summed features the second launch reads are the reference's segment sum of the arguments. -/
theorem head_val (c : Dev nD) :
    (Vin1 m c main_v3 : S1024x128.Idx → EReal)
      = (Host.scatterAdd (F := Ideal) Cert.ReferenceIdeal.scatter_S1024x128_S500000x1_S500000x128_1_0_0_1
          (broadcastInDim Cert.ReferenceIdeal.S1024x128 ![] Cert.ReferenceIdeal.Facts₀.bcast_S_S1024x128 (constant Cert.ReferenceIdeal.S_ .f32 0x00000000#32))
          (broadcastInDim Cert.ReferenceIdeal.S500000x1 ![0] Cert.ReferenceIdeal.Facts₀.bcast_S500000_S500000x1_0 (argZ m c)) (argX m c)) := by
  funext i
  obtain ⟨d, j, rfl⟩ : ∃ (d : Fin 1024) (j : Fin 128), i = ix2 d j := ⟨i 0, i 1, eq_ix2 i⟩
  have hslab : ∀ p : Fin 2, part (Vin0 m) c (ix3 p d j)
      = halfSum (padX (argX m c)) (padZ (argZ m c)) p d j := fun p => by
    rw [partial_apply, relay_apply, sums_half, entry_rows, entry_ids]
  rw [head_entry, Finset.sum_congr rfl (fun p _ => hslab p)]
  exact head_eq _ _ d j

/-- The result array after the second launch is the reference's composed term of the arguments. -/
theorem kernel_val (c : Dev nD) :
    ((dat1 (Vin1 m) c).arrAt 5 cfg1.N : FVec Ideal S1024x128 .f32)
      = addf (Host.dotGeneral Cert.ReferenceIdeal.dot_S1024x256_S256x128_S1024x128_1_0_0_1_n_n none (maximumf (addf (Host.dotGeneral Cert.ReferenceIdeal.dot_S1024x128_S128x256_S1024x256_1_0_0_1_n_n none (maximumf (Host.scatterAdd (F := Ideal) Cert.ReferenceIdeal.scatter_S1024x128_S500000x1_S500000x128_1_0_0_1
          (broadcastInDim Cert.ReferenceIdeal.S1024x128 ![] Cert.ReferenceIdeal.Facts₀.bcast_S_S1024x128 (constant Cert.ReferenceIdeal.S_ .f32 0x00000000#32))
          (broadcastInDim Cert.ReferenceIdeal.S500000x1 ![0] Cert.ReferenceIdeal.Facts₀.bcast_S500000_S500000x1_0 (argZ m c)) (argX m c)) (broadcastInDim Cert.ReferenceIdeal.S1024x128 ![] Cert.ReferenceIdeal.Facts₀.bcast_S_S1024x128 (constant Cert.ReferenceIdeal.S_ .f32 0x00000000#32))) (argW1 m c)) (broadcastInDim Cert.ReferenceIdeal.S1024x256 ![0, 1] Cert.ReferenceIdeal.Facts₀.bcast_S1x256_S1024x256_0_1 (broadcastInDim Cert.ReferenceIdeal.S1x256 ![1] Cert.ReferenceIdeal.Facts₀.bcast_S256_S1x256_1 (argB1 m c)))) (broadcastInDim Cert.ReferenceIdeal.S1024x256 ![] Cert.ReferenceIdeal.Facts₀.bcast_S_S1024x256 (constant Cert.ReferenceIdeal.S_ .f32 0x00000000#32))) (argW2 m c)) (broadcastInDim Cert.ReferenceIdeal.S1024x128 ![0, 1] Cert.ReferenceIdeal.Facts₀.bcast_S1x128_S1024x128_0_1 (broadcastInDim Cert.ReferenceIdeal.S1x128 ![1] Cert.ReferenceIdeal.Facts₀.bcast_S128_S1x128_1 (argB2 m c))) := by
  refine (out_eq (Vin1 m) c).trans ?_
  rw [tile1_0, tile1_1, tile1_2, tile1_3, tile1_4, head_val, entry_w1, entry_b1, entry_w2, entry_b2]
  exact mlp_eq _ _ _ _ _

end Cert.KernelIdeal.Val

end
-- ==== Proof.lean ====
/-
  The certificate: a per-district sum of node features followed by a two-layer perceptron, as two kernel launches,
  against the plain reference.

  The kernel pads the 500000 feature rows and their district ids to 490 tiles of 1024 rows (zero rows, id 1024),
  and sums, for each half of the tiles on its own, each tile's one-hot product into a scratch array that it carries
  from tile to tile; each half's sums are written out at the half's last tile, the two halves are added on the
  host, and a second launch applies the perceptron. The reference adds row n into row (id of n) of a zero array,
  dropping ids outside 0..1023, and applies the same perceptron.

  Frames. Both printed kernel programs (word level and idealized) run to the end, fault nowhere and leave their
  arguments as launched: each launch is a segment of @main between host stretches; the first launch's invariant
  carries the scratch at the running sums after the tile before. The reference's frame is its generated run.
  Nothing is idealized by a rewrite, so the preservation conjunct is trivial.

  Values, on the extended reals. The idealized kernel's result array ends at the perceptron of
  0 + (half 0's sums) + (half 1's sums); re-indexing the tiles' rows by their row number and dropping the padding
  rows (their id 1024 is no district) gives, for district d and feature j, 0 + the sum of x n j over the rows with
  id d, which is the reference's accumulating scatter; the perceptrons agree operation by operation (narrowing to
  bf16 is the identity on extended reals; a matrix product into a zero accumulator is the host's product). No
  step needs the inputs finite: only sums re-associated and commuted, 0 + a = a, 1 * a = a and 0 * a = 0.
-/
import proofs.«431016_j89206470738329_1_alg».proof.Defs
import proofs.«431016_j89206470738329_1_alg».proof.Proof.Gen.Kernel
import proofs.«431016_j89206470738329_1_alg».proof.Proof.Gen.KernelIdeal
import proofs.«431016_j89206470738329_1_alg».proof.Proof.Gen.ReferenceIdeal
import proofs.«431016_j89206470738329_1_alg».proof.Proof.Gen.Pre_finite_inputs
import proofs.«431016_j89206470738329_1_alg».proof.Proof.Gen.ReferenceIdeal.Run
import proofs.«431016_j89206470738329_1_alg».proof.Proof.KSegRun
import proofs.«431016_j89206470738329_1_alg».proof.Proof.SegRun
import proofs.«431016_j89206470738329_1_alg».proof.Proof.KernelValue

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Seg.frame (F := Bits) m ρ

/-- So does the idealized one. -/
theorem frame_ki : Cert.frame_KernelIdeal := fun m ρ _ => Cert.KernelIdeal.Seg.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories agreeing on the arguments both idealized programs run and end with equal results: the kernel's
    result array is the reference's composed term of the arguments. -/
theorem algebraic : Cert.algebraic_KernelIdeal_ReferenceIdeal := by
  intro m ρ m' ρ' _ hagree
  refine ⟨fun c => (Cert.KernelIdeal.Seg.dat1 (Cert.KernelIdeal.Seg.Vin1 m) c).arrAt 5 Cert.KernelIdeal.cfg1.N,
    Cert.KernelIdeal.Seg.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.KernelIdeal.Val.kernel_val m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
